-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_c)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_c) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S64x768 : Shape := ⟨2, ![64, 768]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_

variable [Facts]

def fn {F : FTy → Type} [FloatOps F] (main_arg0 : FVec F S32768x768 .f32) (main_arg1 : FVec F S64x768 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  main_v8
-- ==== Kernel.lean ====
abbrev S32768x768 : Shape := ⟨2, ![32768, 768]⟩
abbrev S64x768 : Shape := ⟨2, ![64, 768]⟩
abbrev S4x8192x768 : Shape := ⟨3, ![4, 8192, 768]⟩
abbrev S4x8192x64 : Shape := ⟨3, ![4, 8192, 64]⟩
abbrev S1x1024x768 : Shape := ⟨3, ![1, 1024, 768]⟩
abbrev S4x1024x64 : Shape := ⟨3, ![4, 1024, 64]⟩
abbrev S1024x768 : Shape := ⟨2, ![1024, 768]⟩
abbrev S1024x64 : Shape := ⟨2, ![1024, 64]⟩
abbrev S1x1024x64 : Shape := ⟨3, ![1, 1024, 64]⟩
abbrev S32768x64 : Shape := ⟨2, ![32768, 64]⟩
abbrev S_ : Shape := ⟨0, ![]⟩

abbrev nBuf : Space → Nat
  | .hbm => 6
  | .vmem => 11
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S4x8192x768, .f32⟩
  | .hbm, ⟨3, _⟩ => ⟨S4x8192x64, .f32⟩
  | .hbm, ⟨4, _⟩ => ⟨S32768x64, .f32⟩
  | .hbm, ⟨5, _⟩ => ⟨S_, .i32⟩
  | .local _ .vmem, ⟨0, _⟩ => ⟨S1x1024x768, .f32⟩
  | .local _ .vmem, ⟨1, _⟩ => ⟨S1x1024x768, .f32⟩
  | .local _ .vmem, ⟨2, _⟩ => ⟨S1x1024x768, .f32⟩
  | .local _ .vmem, ⟨3, _⟩ => ⟨S1x1024x768, .f32⟩
  | .local _ .vmem, ⟨4, _⟩ => ⟨S1x1024x768, .f32⟩
  | .local _ .vmem, ⟨5, _⟩ => ⟨S1x1024x768, .f32⟩
  | .local _ .vmem, ⟨6, _⟩ => ⟨S1x1024x768, .f32⟩
  | .local _ .vmem, ⟨7, _⟩ => ⟨S1x1024x768, .f32⟩
  | .local _ .vmem, ⟨8, _⟩ => ⟨S64x768, .f32⟩
  | .local _ .vmem, ⟨9, _⟩ => ⟨S4x1024x64, .f32⟩
  | .local _ .vmem, ⟨10, _⟩ => ⟨S4x1024x64, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32768x768_S4x8192x768 : S32768x768.ShapeCasts S4x8192x768
  inb_S64x768_S64x768_0_0 : ∀ a, (![0, 0] : Fin 2 → Nat) a + S64x768.size a ≤ S64x768.size a
  h_S64x768 : 0 < S64x768.numel
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S4x1024x64_S1x1024x64_0_0_0 : ∀ a, (![0, 0, 0] : Fin 3 → Nat) a + S1x1024x64.size a ≤ S4x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  inb_S4x1024x64_S1x1024x64_1_0_0 : ∀ a, (![1, 0, 0] : Fin 3 → Nat) a + S1x1024x64.size a ≤ S4x1024x64.size a
  inb_S4x1024x64_S1x1024x64_2_0_0 : ∀ a, (![2, 0, 0] : Fin 3 → Nat) a + S1x1024x64.size a ≤ S4x1024x64.size a
  inb_S4x1024x64_S1x1024x64_3_0_0 : ∀ a, (![3, 0, 0] : Fin 3 → Nat) a + S1x1024x64.size a ≤ S4x1024x64.size a
  shapeCasts_S4x8192x64_S32768x64 : S4x8192x64.ShapeCasts S32768x64
  dot_S1024x768_S64x768_S1024x64_1_1_0_0_n_n_wf : DotDims.WF S1024x768 S64x768 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S4x8192x768.size a
  hwx0_0 : ∀ i : grid0.Coords, EltTy.bits .f32 = 32 ∨ (Rect.block (s := S4x8192x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x768.size a ≤ S4x8192x768.size a
  hwx0_1 : ∀ i : grid0.Coords, EltTy.bits .f32 = 32 ∨ (Rect.block (s := S4x8192x768) S1x1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x768.size a ≤ S4x8192x768.size a
  hwx0_2 : ∀ i : grid0.Coords, EltTy.bits .f32 = 32 ∨ (Rect.block (s := S4x8192x768) S1x1024x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x768.size a ≤ S4x8192x768.size a
  hwx0_3 : ∀ i : grid0.Coords, EltTy.bits .f32 = 32 ∨ (Rect.block (s := S4x8192x768) S1x1024x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x768.size a ≤ S64x768.size a
  hwx0_4 : ∀ i : grid0.Coords, EltTy.bits .f32 = 32 ∨ (Rect.block (s := S64x768) S64x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x1024x64.size a ≤ S4x8192x64.size a
  hwx0_5 : ∀ i : grid0.Coords, EltTy.bits .f32 = 32 ∨ (Rect.block (s := S4x8192x64) S4x1024x64.size (cc0_transform_5 i) (hinb0_5 i)).WholeWords (EltTy.packing .f32)

variable [Facts₀]

def dot_S1024x768_S64x768_S1024x64_1_1_0_0_n_n : DotDims S1024x768 S64x768 S1024x64 where
  lhsContracting := [1]
  rhsContracting := [1]
  lhsNonContracting := [0]
  rhsNonContracting := [0]
  lhsBatch := []
  rhsBatch := []
  wf := dot_S1024x768_S64x768_S1024x64_1_1_0_0_n_n_wf

abbrev win0_0 : Pipeline.Window sig grid0 :=
  Pipeline.Window.ofSpec (Memref.whole main_v0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S64x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S4x1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x768 : Shape := ⟨2, ![32768, 768]⟩
abbrev S64x768 : Shape := ⟨2, ![64, 768]⟩
abbrev S768x64 : Shape := ⟨2, ![768, 64]⟩
abbrev S32768x64 : Shape := ⟨2, ![32768, 64]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S768x64, .f32⟩
  | .hbm, ⟨3, _⟩ => ⟨S32768x64, .f32⟩
  | .hbm, ⟨4, _⟩ => ⟨S_, .i32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩

abbrev nD : Nat := 1
abbrev τ : Topo := Topo.v7x

variable {F : FTy → Type} [FloatOps F]

class Facts₀ : Prop where
  transposes_S64x768_S768x64_1_0 : S64x768.Transposes [1, 0] S768x64
  dot_S32768x768_S768x64_S32768x64_1_0_0_1_n_n_wf : DotDims.WF S32768x768 S768x64 S32768x64 [1] [0] [0] [1] [] []

variable [Facts₀]

def dot_S32768x768_S768x64_S32768x64_1_0_0_1_n_n : DotDims S32768x768 S768x64 S32768x64 where
  lhsContracting := [1]
  rhsContracting := [0]
  lhsNonContracting := [0]
  rhsNonContracting := [1]
  lhsBatch := []
  rhsBatch := []
  wf := dot_S32768x768_S768x64_S32768x64_1_0_0_1_n_n_wf

class Facts : Prop extends Facts₀ where

variable [Facts]
-- ==== Proof.Bits.Data.lean ====
/-
  The gate kernel's region, as data: what the region finds in its arrays, each window's block at a
  grid point, and what the body leaves in the output window's staging buffer.

  The pallas_call has six windows over a grid of 8 points. Windows 0–3 all stage the SAME array, the input rows
  regrouped as [4, 8192, 768]: window s reads rows [1024·i, 1024·i + 1024) of quarter s at point i. Window 4 is the
  whole weight matrix [64, 768]. Window 5 is the output, blocks [4, 1024, 64] at block index (0, i, 0). At a point the
  body stores into slab s of the output block the product of window s's rows with the transposed weights.
-/
import proofs.«143385_g55542517072588_cont_9to1c4b_208_7_alg».proof.Proof.Gen.Kernel.Launch
import proofs.«143385_g55542517072588_cont_9to1c4b_208_7_alg».proof.Proof.Gen.Kernel.Skeleton
import proofs.«143385_g55542517072588_cont_9to1c4b_208_7_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The arrays as the region finds them -/

/-- Core `c`'s buffer contents when the region is entered: the launch contents after the one host line before the
    region (the regrouping of the input rows into four quarters). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole weight buffer. -/
abbrev rW : Rect S64x768 := Rect.unit (s := S64x768) ![0, 0] S64x768.size inb_S64x768_S64x768_0_0
/-- A whole input buffer. -/
abbrev rX : Rect S1x1024x768 := Rect.unit (s := S1x1024x768) ![0, 0, 0] S1x1024x768.size inb_S1x1024x768_S1x1024x768_0_0_0
/-- Slab 0 … 3 of the output buffer. -/
abbrev rO0 : Rect S4x1024x64 := Rect.unit (s := S4x1024x64) ![0, 0, 0] S1x1024x64.size inb_S4x1024x64_S1x1024x64_0_0_0
abbrev rO1 : Rect S4x1024x64 := Rect.unit (s := S4x1024x64) ![1, 0, 0] S1x1024x64.size inb_S4x1024x64_S1x1024x64_1_0_0
abbrev rO2 : Rect S4x1024x64 := Rect.unit (s := S4x1024x64) ![2, 0, 0] S1x1024x64.size inb_S4x1024x64_S1x1024x64_2_0_0
abbrev rO3 : Rect S4x1024x64 := Rect.unit (s := S4x1024x64) ![3, 0, 0] S1x1024x64.size inb_S4x1024x64_S1x1024x64_3_0_0

/-! ## What the body leaves in the output window's buffer -/

/-- The output buffer after the body, from the five input blocks: its four slab stores as pieces, the last store first;
    slab `s` holds the product of input block `s` with the transposed weights. -/
def out5 (x0 x1 x2 x3 : Vec F S1x1024x768 .f32) (w : Vec F S64x768 .f32) : Vec F S4x1024x64 .f32 :=
  View.canon [⟨rO3, k0_pay4 (View.ld w rW) (View.ld x3 rX)⟩, ⟨rO2, k0_pay3 (View.ld w rW) (View.ld x2 rX)⟩,
    ⟨rO1, k0_pay2 (View.ld w rW) (View.ld x1 rX)⟩, ⟨rO0, k0_pay1 (View.ld w rW) (View.ld x0 rX)⟩]

/-! ## The proof data -/

/-- The pipeline's proof data on core `c`: the arrays as the region finds them; after the body each input's buffer at
    its block and the output's at `out5` of the input blocks; the invariant the scoped rest and the generator
    register, untouched; nothing owed. The four windows on the regrouped input hold a quarter of its share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

end Cert.Kernel.Frame

end
-- ==== Proof.Bits.Body.lean ====
/-
  The body obligation of the gate kernel's region: at every grid point, handed each input window's staging buffer at
  the window's block and the output window's at anything, the body runs to the inputs unchanged and the output buffer
  at its four slab stores.
-/
import proofs.«143385_g55542517072588_cont_9to1c4b_208_7_alg».proof.Proof.Bits.Data

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What the body finds in each input window's buffer -/

/-- Input window 0's current staging buffer holds its block at every point, fetched there or not: unfetched, the
    block index has not moved, and the buffer still holds the previous point's block, which is this point's. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

/-- Input window 1's current staging buffer holds its block at every point, fetched there or not: unfetched, the
    block index has not moved, and the buffer still holds the previous point's block, which is this point's. -/
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- Input window 2's current staging buffer holds its block at every point, fetched there or not: unfetched, the
    block index has not moved, and the buffer still holds the previous point's block, which is this point's. -/
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- Input window 3's current staging buffer holds its block at every point, fetched there or not: unfetched, the
    block index has not moved, and the buffer still holds the previous point's block, which is this point's. -/
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-- Input window 4's current staging buffer holds its block at every point, fetched there or not: unfetched, the
    block index has not moved, and the buffer still holds the previous point's block, which is this point's. -/
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

/-! ## The four slab stores cover the output buffer -/

/-- The four slabs tile the output buffer in blocks of one slab, so they cover it. -/
theorem cover5 (p0 p1 p2 p3 : Vec F S1x1024x64 .f32) (y : S4x1024x64.Idx) :
    ∃ pc ∈ ([⟨rO3, p3⟩, ⟨rO2, p2⟩, ⟨rO1, p1⟩, ⟨rO0, p0⟩] : List (View.Piece (Elt F) S4x1024x64 .f32)), y ∈ pc.1.set :=
  View.cover_of_tiled [⟨rO3, p3⟩, ⟨rO2, p2⟩, ⟨rO1, p1⟩, ⟨rO0, p0⟩] S1x1024x64.size (by rfl) y

/-! ## The body's triple -/

set_option maxHeartbeats 1000000 in
/-- The kernel body on whole staging memrefs, the inputs' at read contents `x0 … x3`, `w` and the output's at anything,
    runs to the continuation holding the inputs' as they were and the output's at `out5` of the inputs': each load of
    an input reads its whole buffer, each load of an output slab reads a value no store uses, and the four stores
    cover the output buffer. -/
theorem sound_kernel (c : Dev nD) (E : Set ℕ) (i : grid0.Coords)
    (arg1 : Memref sig .tc .vmem S1x1024x768 .f32) (harg1 : arg1.IsWhole) (arg2 : Memref sig .tc .vmem S1x1024x768 .f32) (harg2 : arg2.IsWhole)
    (arg3 : Memref sig .tc .vmem S1x1024x768 .f32) (harg3 : arg3.IsWhole) (arg4 : Memref sig .tc .vmem S1x1024x768 .f32) (harg4 : arg4.IsWhole)
    (arg5 : Memref sig .tc .vmem S64x768 .f32) (harg5 : arg5.IsWhole) (arg6 : Memref sig .tc .vmem S4x1024x64 .f32) (harg6 : arg6.IsWhole)
    (x0 x1 x2 x3 : Vec F S1x1024x768 .f32) (w : Vec F S64x768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w
            ∗ owns (c : Thread nD τ) arg6 fullShare (out5 x0 x1 x2 x3 w)) -∗ K ⟨⟩))
      ⊢ wp frame (wpE (defs₀ (F := F)) Variants.none c none) E (cc0__gate_kernel i arg1 harg1 arg2 harg2 arg3 harg3 arg4 harg4 arg5 harg5 arg6 harg6) K := by
  simp only [cc0__gate_kernel_eq_skeleton]; unfold cc0__gate_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _ _ _)

/-! ## The body obligation, at a generic point -/

/-- What the body is called with at point `t`: the invariant, what the core owes, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns: the invariant and what the core owes as they were, each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks (`before_0` … `before_4`), so `sound_kernel`
    applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := by
  intro t
  rw [bigSep_W0, bigSep_W0]
  exact sound_body m c t

end Cert.Kernel.Frame

end
-- ==== Proof.Bits.Launch.lean ====
/-
  The launch of the gate kernel's program: the host line that regroups the input, the one kernel region, the two host
  lines after it. Four of the region's windows read ONE array, the regrouped input: each holds a quarter of that
  array's share while the region runs, and the quarters are joined again at its exit. The host lines after the region
  read only the output array and write two fresh results.
-/
import proofs.«143385_g55542517072588_cont_9to1c4b_208_7_alg».proof.Proof.Bits.Body

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Pipeline (arrBufs unscopedRest unscopedRestP scopedRest ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's arrays, window by window: the regrouped input four times at a quarter share, the weights and the
    output array whole. -/
theorem arrays_open (c : Dev nD) (A : (w : Fin cfg0.W) → Buf (Elt F) ((cfg0.win w).arr.view.loc (c.tc : Thread nD τ))) :
    ((dats m 0 c).arrays A : sProp 𝕄)
      = iprop((((c.tc : Thread nD τ).loc main_v0) ↦{fullShare.left.left} A 0)
          ∗ (((c.tc : Thread nD τ).loc main_v0) ↦{fullShare.left.right} A 1)
          ∗ (((c.tc : Thread nD τ).loc main_v0) ↦{fullShare.right.left} A 2)
          ∗ (((c.tc : Thread nD τ).loc main_v0) ↦{fullShare.right.right} A 3)
          ∗ (((c.tc : Thread nD τ).loc main_arg1) ↦{fullShare} A 4)
          ∗ (((c.tc : Thread nD τ).loc main_v1) ↦{fullShare} A 5)) := by
  unfold Dat.arrays
  rw [bigSep_W0]
  rw [(arr_whole0 0).set_eq_univ, (arr_whole0 4).set_eq_univ, (arr_whole0 5).set_eq_univ]
  rfl

/-- The three buffers behind the six windows' arrays. -/
theorem arrBufs_open (c : Dev nD) (W : (b : Ref sig .tc) → Buf (Elt F) ((c.tc : Thread nD τ).loc b)) :
    (arrBufs (Ix := Unit) (Name := ℕ) (U := UR sig nD τ) (Lvl := ℕ) spec0 c W : sProp 𝕄)
      = iprop((((c.tc : Thread nD τ).loc main_v0) ↦{fullShare} W main_v0)
          ∗ (((c.tc : Thread nD τ).loc main_arg1) ↦{fullShare} W main_arg1)
          ∗ (((c.tc : Thread nD τ).loc main_v1) ↦{fullShare} W main_v1)) := by
  unfold arrBufs
  exact bigSep_eq_bigSepL_of_eq [main_v0, main_arg1, main_v1] (by decide) (by decide) _

/-- A whole buffer split into its four quarter shares. -/
theorem quarters (ℓ : Loc nD τ sig) (f : Buf (Elt F) ℓ) :
    (ℓ ↦{fullShare} f : sProp 𝕄)
      ⊣⊢ iprop((ℓ ↦{fullShare.left.left} f) ∗ (ℓ ↦{fullShare.left.right} f) ∗ (ℓ ↦{fullShare.right.left} f) ∗ (ℓ ↦{fullShare.right.right} f)) := by
  constructor
  · iintro H
    ihave H := (pointsTo_share (PosShare.mem_left_op_right fullShare)).1 $$ H
    icases H with ⟨Hl, Hr⟩
    ihave Hl := (pointsTo_share (PosShare.mem_left_op_right fullShare.left)).1 $$ Hl
    icases Hl with ⟨Hll, Hlr⟩
    ihave Hr := (pointsTo_share (PosShare.mem_left_op_right fullShare.right)).1 $$ Hr
    icases Hr with ⟨Hrl, Hrr⟩
    isplitl [Hll]; · iexact Hll
    isplitl [Hlr]; · iexact Hlr
    isplitl [Hrl]; · iexact Hrl
    iexact Hrr
  · iintro ⟨Hll, Hlr, Hrl, Hrr⟩
    iapply (pointsTo_share (PosShare.mem_left_op_right fullShare)).2
    isplitl [Hll Hlr]
    · iapply (pointsTo_share (PosShare.mem_left_op_right fullShare.left)).2
      isplitl [Hll] <;> iassumption
    · iapply (pointsTo_share (PosShare.mem_left_op_right fullShare.right)).2
      isplitl [Hrl] <;> iassumption

/-- At the region's entry the buffers behind the arrays, whole, are dealt among the windows: the regrouped input in
    quarters to the four windows that read it. -/
theorem hsplit (c : Dev nD) :
    (arrBufs (Ix := Unit) (Name := ℕ) (U := UR sig nD τ) (Lvl := ℕ) spec0 c (V m c) : sProp 𝕄)
      ⊢ (dats m 0 c).arrays ((dats m 0 c).arrAt · 0) := by
  rw [arrBufs_open, arrays_open]
  iintro ⟨H0, H4, H5⟩
  ihave H0 := (quarters ((c.tc : Thread nD τ).loc main_v0) (V m c main_v0)).1 $$ H0
  icases H0 with ⟨Ha, Hb, Hc, Hd⟩
  isplitl [Ha]; · iexact Ha
  isplitl [Hb]; · iexact Hb
  isplitl [Hc]; · iexact Hc
  isplitl [Hd]; · iexact Hd
  isplitl [H4]; · iexact H4
  iexact H5

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the regrouping line, the region, the two lines after it: it reduces to the region continued by those two
    lines, at the contents after the first. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-! ## The lines after the region -/

/-- The contents at the region's exit: the output array as the pipeline wrote it back, every other buffer as the
    region found it. -/
def Wf (c : Dev nD) : Valuation τ sig (Elt F) :=
  Function.update (V0 m c) (Proc.devRef .tc main_v1) ((dats m 0 c).arrAt 5 cfg0.N)

/-- The contents after the two lines that follow the region. -/
def Wtail (c : Dev nD) (b : Ref sig .tc) : Buf (Elt F) ((c.tc : Thread nD τ).loc b) :=
  StableHlo.after hostOps1 (Wf m c) (Proc.devRef .tc b)

theorem Wf_v1 (c : Dev nD) : Wf m c (Proc.devRef .tc main_v1) = (dats m 0 c).arrAt 5 cfg0.N := by
  unfold Wf; rw [Function.update_self]

theorem Wf_of_ne (c : Dev nD) (b : Ref sig .tc) (h : b ≠ main_v1) : Wf m c (Proc.devRef .tc b) = V m c b := by
  unfold Wf; rw [Function.update_of_ne (StableHlo.devRef_ne_of_ne h)]

/-- The buffers the two lines touch: the output array, which they read, and their two results. -/
abbrev tailS : Finset (DevRef τ sig) := {Proc.devRef .tc main_v1, Proc.devRef .tc main_v2, Proc.devRef .tc main_c}

theorem held_tailS (c : Dev nD) (W : Valuation τ sig (Elt F)) :
    (StableHlo.held (c.tc : Thread nD τ) tailS W : sProp 𝕄)
      = iprop((((c.tc : Thread nD τ).loc main_v1) ↦{fullShare} W (Proc.devRef .tc main_v1))
          ∗ (((c.tc : Thread nD τ).loc main_v2) ↦{fullShare} W (Proc.devRef .tc main_v2))
          ∗ (((c.tc : Thread nD τ).loc main_c) ↦{fullShare} W (Proc.devRef .tc main_c))) := by
  unfold StableHlo.held tailS
  rw [bigSep_insert (by
      rw [Finset.mem_insert, Finset.mem_singleton]
      rintro (h | h)
      · exact StableHlo.devRef_ne_of_ne (by decide) h
      · exact StableHlo.devRef_ne_of_ne (by decide) h),
    bigSep_insert (by
      rw [Finset.mem_singleton]
      exact StableHlo.devRef_ne_of_ne (by decide)),
    bigSep_singleton]
  rfl

theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl
  · rw [StableHlo.reshape_bufs]
    intro b hb
    rw [Finset.mem_insert, Finset.mem_singleton] at hb
    rcases hb with rfl | rfl <;> simp
  · rw [StableHlo.nullary_bufs]
    intro b hb
    rw [Finset.mem_singleton] at hb
    subst hb; simp

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The lines after the region do not write the output array. -/
theorem Wtail_v1 (c : Dev nD) : Wtail m c main_v1 = (dats m 0 c).arrAt 5 cfg0.N := by
  unfold Wtail
  rw [StableHlo.after_of_forall_not_mem _ _ (fun op hop => ?_), Wf_v1]
  simp only [hostOps1, List.mem_cons, List.mem_nil_iff, or_false] at hop
  rcases hop with rfl | rfl
  · rw [StableHlo.reshape_writes, Finset.mem_singleton]; exact StableHlo.devRef_ne_of_ne (by decide)
  · rw [StableHlo.nullary_writes, Finset.mem_singleton]; exact StableHlo.devRef_ne_of_ne (by decide)

/-- Nor the first argument. -/
theorem Wtail_arg0 (c : Dev nD) : Wtail m c main_arg0 = V m c main_arg0 := by
  unfold Wtail
  rw [StableHlo.after_of_forall_not_mem _ _ (fun op hop => ?_), Wf_of_ne m c main_arg0 (by decide)]
  simp only [hostOps1, List.mem_cons, List.mem_nil_iff, or_false] at hop
  rcases hop with rfl | rfl
  · rw [StableHlo.reshape_writes, Finset.mem_singleton]; exact StableHlo.devRef_ne_of_ne (by decide)
  · rw [StableHlo.nullary_writes, Finset.mem_singleton]; exact StableHlo.devRef_ne_of_ne (by decide)

/-- The three buffers the lines touch, gathered into the set they run within. -/
theorem held_tailS_intro (c : Dev nD) (W : Valuation τ sig (Elt F)) :
    iprop((((c.tc : Thread nD τ).loc main_v1) ↦{fullShare} W (Proc.devRef .tc main_v1))
          ∗ (((c.tc : Thread nD τ).loc main_v2) ↦{fullShare} W (Proc.devRef .tc main_v2))
          ∗ (((c.tc : Thread nD τ).loc main_c) ↦{fullShare} W (Proc.devRef .tc main_c)))
      ⊢ (StableHlo.held (c.tc : Thread nD τ) tailS W : sProp 𝕄) := Entails.of_eq (held_tailS c W).symm

theorem held_tailS_elim (c : Dev nD) (W : Valuation τ sig (Elt F)) :
    (StableHlo.held (c.tc : Thread nD τ) tailS W : sProp 𝕄)
      ⊢ iprop((((c.tc : Thread nD τ).loc main_v1) ↦{fullShare} W (Proc.devRef .tc main_v1))
          ∗ (((c.tc : Thread nD τ).loc main_v2) ↦{fullShare} W (Proc.devRef .tc main_v2))
          ∗ (((c.tc : Thread nD τ).loc main_c) ↦{fullShare} W (Proc.devRef .tc main_c))) := Entails.of_eq (held_tailS c W)

/-- THE LINES AFTER THE REGION: from the region's exit — the boundary, the pipeline's arrays at their final contents,
    the bypassing buffers as the region found them — the two lines run within the output array and their two result
    buffers, and hand back the arrays as they were and the bypassing buffers at the contents after the lines. -/
theorem htail (c : Dev nD) (Q' : PUnit → sProp 𝕄) :
    iprop((iprop((dats m 0 c).arrays ((dats m 0 c).arrAt · cfg0.N)
            ∗ unscopedRestP (Ix := Unit) (Name := ℕ) (U := UR sig nD τ) (Lvl := ℕ) Pipeline.Prefetch.none spec0 c (Wtail m c)) -∗ Q' ⟨⟩)
        ∗ boundary (c.tc : Thread nD τ) ∗ (dats m 0 c).arrays ((dats m 0 c).arrAt · cfg0.N)
        ∗ unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ
          (Pipeline.chain [StableHlo.seq hostOps1]) Q' := by
  have e1 : (V m c main_v2) = Wf m c (Proc.devRef .tc main_v2) := (Wf_of_ne m c main_v2 (by decide)).symm
  have e2 : (V m c main_c) = Wf m c (Proc.devRef .tc main_c) := (Wf_of_ne m c main_c (by decide)).symm
  have e5 : (dats m 0 c).arrAt 5 cfg0.N = Wf m c (Proc.devRef .tc main_v1) := (Wf_v1 m c).symm
  have e5' : StableHlo.after ([hostOps1] : List (List (HloOp τ sig (Elt F)))).flatten (Wf m c) (Proc.devRef .tc main_v1) = (dats m 0 c).arrAt 5 cfg0.N :=
    Wtail_v1 m c
  have hend : (Q' ⟨⟩) ⊢ wp frame (wpE (defs (F := F)) (Variants.lift Variants.none) (c.tc : Thread nD τ) none) Set.univ
      (Pipeline.chain ([] : List (Prog (TpuEff nD τ sig (Elt F) (Pipeline.Sig Λ₀ (Fin 1) fun p => (pcfgs (F := F) p).Adm) .tc) PUnit))) Q' := by
    rw [Pipeline.chain_nil]; exact le_wp_ret _ _ _ _ Q'
  rw [Pipeline.unscopedRestP_none, Pipeline.unscopedRestP_none, unscopedRest0_eq, unscopedRest0_eq, arrays_open, Wtail_arg0,
    show Wtail m c main_v2 = StableHlo.after ([hostOps1] : List (List (HloOp τ sig (Elt F)))).flatten (Wf m c) (Proc.devRef .tc main_v2) from rfl,
    show Wtail m c main_c = StableHlo.after ([hostOps1] : List (List (HloOp τ sig (Elt F)))).flatten (Wf m c) (Proc.devRef .tc main_c) from rfl,
    e1, e2, ← e5']
  rw [show (Pipeline.chain [StableHlo.seq (hostOps1 (F := F))] : Prog (TpuEff nD τ sig (Elt F) (Pipeline.Sig Λ₀ (Fin 1) fun p => (pcfgs (F := F) p).Adm) .tc) PUnit)
      = Pipeline.chain (([hostOps1] : List (List (HloOp τ sig (Elt F)))).map StableHlo.seq ++ []) from rfl]
  iintro ⟨Hk, Hb, ⟨H0, H1, H2, H3, H4, H5⟩, ⟨Ha0, Hv2, Hc⟩⟩
  iapply (Pipeline.wp_seqs_then (fun q => (cfgs q).toPCfg (Val := Elt F)) defs₀ Variants.none c tailS [] [hostOps1] tail_sub tail_fresh (Wf m c)) $$ [Hb H5 Hv2 Hc]
  · isplitl [Hb]; · iexact Hb
    iapply (held_tailS_intro c (Wf m c))
    isplitl [H5]
    · iapply (Entails.of_eq (congrArg (fun f => (((c.tc : Thread nD τ).loc main_v1) ↦{fullShare} f : sProp 𝕄)) (e5'.trans e5)))
      iexact H5
    isplitl [Hv2]; · iexact Hv2
    iexact Hc
  iintro ⟨Hb, Hh⟩
  iapply hend
  ihave Hh := (held_tailS_elim c _) $$ Hh
  icases Hh with ⟨H5, Hv2, Hc⟩
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  · isplitl [Ha0]; · iexact Ha0
    isplitl [Hv2]; · iexact Hv2
    iexact Hc

/-! ## The run -/

/-- The regrouping line writes neither argument. -/
theorem V_main_arg0 (c : Dev nD) : V m c main_arg0 = m ((c.tc : Thread nD τ).loc main_arg0) := by
  show StableHlo.after ([hostOps0] : List (List (HloOp τ sig (Elt F)))).flatten (fun b => m (c, b)) (Proc.devRef .tc main_arg0) = _
  rw [StableHlo.after_of_forall_not_mem _ _ (fun op hop => ?_)]
  simp only [hostOps0, List.flatten_cons, List.flatten_nil, List.append_nil, List.mem_cons, List.mem_nil_iff, or_false] at hop
  subst hop
  rw [StableHlo.reshape_writes, Finset.mem_singleton]; exact StableHlo.devRef_ne_of_ne (by decide)

theorem V_main_arg1 (c : Dev nD) : V m c main_arg1 = m ((c.tc : Thread nD τ).loc main_arg1) := by
  show StableHlo.after ([hostOps0] : List (List (HloOp τ sig (Elt F)))).flatten (fun b => m (c, b)) (Proc.devRef .tc main_arg1) = _
  rw [StableHlo.after_of_forall_not_mem _ _ (fun op hop => ?_)]
  simp only [hostOps0, List.flatten_cons, List.flatten_nil, List.append_nil, List.mem_cons, List.mem_nil_iff, or_false] at hop
  subst hop
  rw [StableHlo.reshape_writes, Finset.mem_singleton]; exact StableHlo.devRef_ne_of_ne (by decide)

-- the launch theorem's implicit arguments are found by unifying its conclusion with this one, which takes unfolding plain
-- definitions in a metavariable's type
set_option backward.isDefEq.respectTransparency.types false in
/-- At the compiled mesh, for any values, from any memory with zero counters: every weakly fair execution of @main
    terminates, and in every final state the two results hold the contents after the last two host lines, run from the
    output array as the pipeline wrote it back, and the two arguments are as launched. -/
theorem run_main : θ_run (defs (F := F)) (onTc (τ := τ) (main (F := F))) (s₀ m ρ) (fun r => ∀ c : Dev nD,
      r.2.mem ((c.tc : Thread nD τ).loc main_v2) = Wtail m c main_v2
      ∧ r.2.mem ((c.tc : Thread nD τ).loc main_c) = Wtail m c main_c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Pipeline.Prefetch.none spec0 c (V m c))
    (Z' := fun c => unscopedRestP (Ix := Unit) (Name := ℕ) (U := UR sig nD τ) (Lvl := ℕ) Pipeline.Prefetch.none spec0 c (Wtail m c))
    (hX := fun c => by
      iintro ⟨HU, -, -, -, Hp, -⟩; imodintro
      isplitl [Hp]; · iexists _; iexact Hp
      iexact HU)
    (hin := fun c => by
      show _ ⊢ ΦA spec0 c
      unfold ΦA
      iintro ⟨Hp, -, Hr⟩
      isplitl [Hr] <;> iassumption)
    (hout := fun c => by
      show ΦA spec0 c ⊢ _
      rw [Pipeline.ownSems0_none]; unfold ΦA
      iintro ⟨Hr, Hp⟩
      isplitl [Hp]; · iexact Hp
      isplitr; · iempintro
      iexact Hr)
    (htail := htail m)
    (QY := fun c s => ∀ b ∈ Pipeline.restRefsP sig Pipeline.Prefetch.none spec0, s.mem ((c.tc : Thread nD τ).loc b) = Wtail m c b)
    (hY := fun c s' => by
      iintro ⟨-, HU, HSI⟩
      unfold unscopedRestP
      imodintro
      iapply (pointsTo_read_all (Pipeline.restRefsP sig Pipeline.Prefetch.none spec0) (fun b => (c.tc : Thread nD τ).loc b) (Wtail m c) s')
      isplitl [HU] <;> iassumption)
    (hQ := fun s h c => by
      have hr : ∀ b : Ref sig .tc, b.isScoped = false → (∀ w, (spec0 w).arr.view.ref ≠ b) → b ∈ Pipeline.restRefsP sig Pipeline.Prefetch.none spec0 :=
        fun b hs ha => Finset.mem_sdiff.mpr ⟨Pipeline.mem_restRefs_of b hs ha, fun hk => by
          obtain ⟨k, -, -⟩ := Finset.mem_image.mp hk; exact k.elim0⟩
      refine ⟨(h c).2.2 main_v2 (hr main_v2 rfl (by decide)), (h c).2.2 main_c (hr main_c rfl (by decide)), ?_, ?_⟩
      · exact ((h c).2.2 main_arg0 (hr main_arg0 rfl (by decide))).trans ((Wtail_arg0 m c).trans (V_main_arg0 m c))
      · exact ((h c).1 4).trans (((dats m 0 c).arrAt_in 4 rfl _).trans ((A_eq m c 4).trans (V_main_arg1 m c))))

end Cert.Kernel.Frame

end
-- ==== Proof.Ideal.Data.lean ====
/-
  The gate kernel's region, as data: what the region finds in its arrays, each window's block at a
  grid point, and what the body leaves in the output window's staging buffer.

  The pallas_call has six windows over a grid of 8 points. Windows 0–3 all stage the SAME array, the input rows
  regrouped as [4, 8192, 768]: window s reads rows [1024·i, 1024·i + 1024) of quarter s at point i. Window 4 is the
  whole weight matrix [64, 768]. Window 5 is the output, blocks [4, 1024, 64] at block index (0, i, 0). At a point the
  body stores into slab s of the output block the product of window s's rows with the transposed weights.
-/
import proofs.«143385_g55542517072588_cont_9to1c4b_208_7_alg».proof.Proof.Gen.KernelIdeal.Launch
import proofs.«143385_g55542517072588_cont_9to1c4b_208_7_alg».proof.Proof.Gen.KernelIdeal.Skeleton
import proofs.«143385_g55542517072588_cont_9to1c4b_208_7_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The arrays as the region finds them -/

/-- Core `c`'s buffer contents when the region is entered: the launch contents after the one host line before the
    region (the regrouping of the input rows into four quarters). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole weight buffer. -/
abbrev rW : Rect S64x768 := Rect.unit (s := S64x768) ![0, 0] S64x768.size inb_S64x768_S64x768_0_0
/-- A whole input buffer. -/
abbrev rX : Rect S1x1024x768 := Rect.unit (s := S1x1024x768) ![0, 0, 0] S1x1024x768.size inb_S1x1024x768_S1x1024x768_0_0_0
/-- Slab 0 … 3 of the output buffer. -/
abbrev rO0 : Rect S4x1024x64 := Rect.unit (s := S4x1024x64) ![0, 0, 0] S1x1024x64.size inb_S4x1024x64_S1x1024x64_0_0_0
abbrev rO1 : Rect S4x1024x64 := Rect.unit (s := S4x1024x64) ![1, 0, 0] S1x1024x64.size inb_S4x1024x64_S1x1024x64_1_0_0
abbrev rO2 : Rect S4x1024x64 := Rect.unit (s := S4x1024x64) ![2, 0, 0] S1x1024x64.size inb_S4x1024x64_S1x1024x64_2_0_0
abbrev rO3 : Rect S4x1024x64 := Rect.unit (s := S4x1024x64) ![3, 0, 0] S1x1024x64.size inb_S4x1024x64_S1x1024x64_3_0_0

/-! ## What the body leaves in the output window's buffer -/

/-- The output buffer after the body, from the five input blocks: its four slab stores as pieces, the last store first;
    slab `s` holds the product of input block `s` with the transposed weights. -/
def out5 (x0 x1 x2 x3 : Vec F S1x1024x768 .f32) (w : Vec F S64x768 .f32) : Vec F S4x1024x64 .f32 :=
  View.canon [⟨rO3, k0_pay4 (View.ld w rW) (View.ld x3 rX)⟩, ⟨rO2, k0_pay3 (View.ld w rW) (View.ld x2 rX)⟩,
    ⟨rO1, k0_pay2 (View.ld w rW) (View.ld x1 rX)⟩, ⟨rO0, k0_pay1 (View.ld w rW) (View.ld x0 rX)⟩]

/-! ## The proof data -/

/-- The pipeline's proof data on core `c`: the arrays as the region finds them; after the body each input's buffer at
    its block and the output's at `out5` of the input blocks; the invariant the scoped rest and the generator
    register, untouched; nothing owed. The four windows on the regrouped input hold a quarter of its share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

end Cert.KernelIdeal.Frame

end
-- ==== Proof.Ideal.Body.lean ====
/-
  The body obligation of the gate kernel's region: at every grid point, handed each input window's staging buffer at
  the window's block and the output window's at anything, the body runs to the inputs unchanged and the output buffer
  at its four slab stores.
-/
import proofs.«143385_g55542517072588_cont_9to1c4b_208_7_alg».proof.Proof.Ideal.Data

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the body finds in each input window's buffer -/

/-- Input window 0's current staging buffer holds its block at every point, fetched there or not: unfetched, the
    block index has not moved, and the buffer still holds the previous point's block, which is this point's. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

/-- Input window 1's current staging buffer holds its block at every point, fetched there or not: unfetched, the
    block index has not moved, and the buffer still holds the previous point's block, which is this point's. -/
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- Input window 2's current staging buffer holds its block at every point, fetched there or not: unfetched, the
    block index has not moved, and the buffer still holds the previous point's block, which is this point's. -/
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- Input window 3's current staging buffer holds its block at every point, fetched there or not: unfetched, the
    block index has not moved, and the buffer still holds the previous point's block, which is this point's. -/
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-- Input window 4's current staging buffer holds its block at every point, fetched there or not: unfetched, the
    block index has not moved, and the buffer still holds the previous point's block, which is this point's. -/
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

/-! ## The four slab stores cover the output buffer -/

/-- The four slabs tile the output buffer in blocks of one slab, so they cover it. -/
theorem cover5 (p0 p1 p2 p3 : Vec F S1x1024x64 .f32) (y : S4x1024x64.Idx) :
    ∃ pc ∈ ([⟨rO3, p3⟩, ⟨rO2, p2⟩, ⟨rO1, p1⟩, ⟨rO0, p0⟩] : List (View.Piece (Elt F) S4x1024x64 .f32)), y ∈ pc.1.set :=
  View.cover_of_tiled [⟨rO3, p3⟩, ⟨rO2, p2⟩, ⟨rO1, p1⟩, ⟨rO0, p0⟩] S1x1024x64.size (by rfl) y

/-! ## The body's triple -/

set_option maxHeartbeats 1000000 in
/-- The kernel body on whole staging memrefs, the inputs' at read contents `x0 … x3`, `w` and the output's at anything,
    runs to the continuation holding the inputs' as they were and the output's at `out5` of the inputs': each load of
    an input reads its whole buffer, each load of an output slab reads a value no store uses, and the four stores
    cover the output buffer. -/
theorem sound_kernel (c : Dev nD) (E : Set ℕ) (i : grid0.Coords)
    (arg1 : Memref sig .tc .vmem S1x1024x768 .f32) (harg1 : arg1.IsWhole) (arg2 : Memref sig .tc .vmem S1x1024x768 .f32) (harg2 : arg2.IsWhole)
    (arg3 : Memref sig .tc .vmem S1x1024x768 .f32) (harg3 : arg3.IsWhole) (arg4 : Memref sig .tc .vmem S1x1024x768 .f32) (harg4 : arg4.IsWhole)
    (arg5 : Memref sig .tc .vmem S64x768 .f32) (harg5 : arg5.IsWhole) (arg6 : Memref sig .tc .vmem S4x1024x64 .f32) (harg6 : arg6.IsWhole)
    (x0 x1 x2 x3 : Vec F S1x1024x768 .f32) (w : Vec F S64x768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w
            ∗ owns (c : Thread nD τ) arg6 fullShare (out5 x0 x1 x2 x3 w)) -∗ K ⟨⟩))
      ⊢ wp frame (wpE (defs₀ (F := F)) Variants.none c none) E (cc0__gate_kernel i arg1 harg1 arg2 harg2 arg3 harg3 arg4 harg4 arg5 harg5 arg6 harg6) K := by
  simp only [cc0__gate_kernel_eq_skeleton]; unfold cc0__gate_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _ _ _)

/-! ## The body obligation, at a generic point -/

/-- What the body is called with at point `t`: the invariant, what the core owes, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns: the invariant and what the core owes as they were, each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks (`before_0` … `before_4`), so `sound_kernel`
    applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := by
  intro t
  rw [bigSep_W0, bigSep_W0]
  exact sound_body m c t

end Cert.KernelIdeal.Frame

end
-- ==== Proof.Ideal.Launch.lean ====
/-
  The launch of the gate kernel's program: the host line that regroups the input, the one kernel region, the two host
  lines after it. Four of the region's windows read ONE array, the regrouped input: each holds a quarter of that
  array's share while the region runs, and the quarters are joined again at its exit. The host lines after the region
  read only the output array and write two fresh results.
-/
import proofs.«143385_g55542517072588_cont_9to1c4b_208_7_alg».proof.Proof.Ideal.Body

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline (arrBufs unscopedRest unscopedRestP scopedRest ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's arrays, window by window: the regrouped input four times at a quarter share, the weights and the
    output array whole. -/
theorem arrays_open (c : Dev nD) (A : (w : Fin cfg0.W) → Buf (Elt F) ((cfg0.win w).arr.view.loc (c.tc : Thread nD τ))) :
    ((dats m 0 c).arrays A : sProp 𝕄)
      = iprop((((c.tc : Thread nD τ).loc main_v0) ↦{fullShare.left.left} A 0)
          ∗ (((c.tc : Thread nD τ).loc main_v0) ↦{fullShare.left.right} A 1)
          ∗ (((c.tc : Thread nD τ).loc main_v0) ↦{fullShare.right.left} A 2)
          ∗ (((c.tc : Thread nD τ).loc main_v0) ↦{fullShare.right.right} A 3)
          ∗ (((c.tc : Thread nD τ).loc main_arg1) ↦{fullShare} A 4)
          ∗ (((c.tc : Thread nD τ).loc main_v1) ↦{fullShare} A 5)) := by
  unfold Dat.arrays
  rw [bigSep_W0]
  rw [(arr_whole0 0).set_eq_univ, (arr_whole0 4).set_eq_univ, (arr_whole0 5).set_eq_univ]
  rfl

/-- The three buffers behind the six windows' arrays. -/
theorem arrBufs_open (c : Dev nD) (W : (b : Ref sig .tc) → Buf (Elt F) ((c.tc : Thread nD τ).loc b)) :
    (arrBufs (Ix := Unit) (Name := ℕ) (U := UR sig nD τ) (Lvl := ℕ) spec0 c W : sProp 𝕄)
      = iprop((((c.tc : Thread nD τ).loc main_v0) ↦{fullShare} W main_v0)
          ∗ (((c.tc : Thread nD τ).loc main_arg1) ↦{fullShare} W main_arg1)
          ∗ (((c.tc : Thread nD τ).loc main_v1) ↦{fullShare} W main_v1)) := by
  unfold arrBufs
  exact bigSep_eq_bigSepL_of_eq [main_v0, main_arg1, main_v1] (by decide) (by decide) _

/-- A whole buffer split into its four quarter shares. -/
theorem quarters (ℓ : Loc nD τ sig) (f : Buf (Elt F) ℓ) :
    (ℓ ↦{fullShare} f : sProp 𝕄)
      ⊣⊢ iprop((ℓ ↦{fullShare.left.left} f) ∗ (ℓ ↦{fullShare.left.right} f) ∗ (ℓ ↦{fullShare.right.left} f) ∗ (ℓ ↦{fullShare.right.right} f)) := by
  constructor
  · iintro H
    ihave H := (pointsTo_share (PosShare.mem_left_op_right fullShare)).1 $$ H
    icases H with ⟨Hl, Hr⟩
    ihave Hl := (pointsTo_share (PosShare.mem_left_op_right fullShare.left)).1 $$ Hl
    icases Hl with ⟨Hll, Hlr⟩
    ihave Hr := (pointsTo_share (PosShare.mem_left_op_right fullShare.right)).1 $$ Hr
    icases Hr with ⟨Hrl, Hrr⟩
    isplitl [Hll]; · iexact Hll
    isplitl [Hlr]; · iexact Hlr
    isplitl [Hrl]; · iexact Hrl
    iexact Hrr
  · iintro ⟨Hll, Hlr, Hrl, Hrr⟩
    iapply (pointsTo_share (PosShare.mem_left_op_right fullShare)).2
    isplitl [Hll Hlr]
    · iapply (pointsTo_share (PosShare.mem_left_op_right fullShare.left)).2
      isplitl [Hll] <;> iassumption
    · iapply (pointsTo_share (PosShare.mem_left_op_right fullShare.right)).2
      isplitl [Hrl] <;> iassumption

/-- At the region's entry the buffers behind the arrays, whole, are dealt among the windows: the regrouped input in
    quarters to the four windows that read it. -/
theorem hsplit (c : Dev nD) :
    (arrBufs (Ix := Unit) (Name := ℕ) (U := UR sig nD τ) (Lvl := ℕ) spec0 c (V m c) : sProp 𝕄)
      ⊢ (dats m 0 c).arrays ((dats m 0 c).arrAt · 0) := by
  rw [arrBufs_open, arrays_open]
  iintro ⟨H0, H4, H5⟩
  ihave H0 := (quarters ((c.tc : Thread nD τ).loc main_v0) (V m c main_v0)).1 $$ H0
  icases H0 with ⟨Ha, Hb, Hc, Hd⟩
  isplitl [Ha]; · iexact Ha
  isplitl [Hb]; · iexact Hb
  isplitl [Hc]; · iexact Hc
  isplitl [Hd]; · iexact Hd
  isplitl [H4]; · iexact H4
  iexact H5

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the regrouping line, the region, the two lines after it: it reduces to the region continued by those two
    lines, at the contents after the first. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-! ## The lines after the region -/

/-- The contents at the region's exit: the output array as the pipeline wrote it back, every other buffer as the
    region found it. -/
def Wf (c : Dev nD) : Valuation τ sig (Elt F) :=
  Function.update (V0 m c) (Proc.devRef .tc main_v1) ((dats m 0 c).arrAt 5 cfg0.N)

/-- The contents after the two lines that follow the region. -/
def Wtail (c : Dev nD) (b : Ref sig .tc) : Buf (Elt F) ((c.tc : Thread nD τ).loc b) :=
  StableHlo.after hostOps1 (Wf m c) (Proc.devRef .tc b)

theorem Wf_v1 (c : Dev nD) : Wf m c (Proc.devRef .tc main_v1) = (dats m 0 c).arrAt 5 cfg0.N := by
  unfold Wf; rw [Function.update_self]

theorem Wf_of_ne (c : Dev nD) (b : Ref sig .tc) (h : b ≠ main_v1) : Wf m c (Proc.devRef .tc b) = V m c b := by
  unfold Wf; rw [Function.update_of_ne (StableHlo.devRef_ne_of_ne h)]

/-- The buffers the two lines touch: the output array, which they read, and their two results. -/
abbrev tailS : Finset (DevRef τ sig) := {Proc.devRef .tc main_v1, Proc.devRef .tc main_v2, Proc.devRef .tc main_c}

theorem held_tailS (c : Dev nD) (W : Valuation τ sig (Elt F)) :
    (StableHlo.held (c.tc : Thread nD τ) tailS W : sProp 𝕄)
      = iprop((((c.tc : Thread nD τ).loc main_v1) ↦{fullShare} W (Proc.devRef .tc main_v1))
          ∗ (((c.tc : Thread nD τ).loc main_v2) ↦{fullShare} W (Proc.devRef .tc main_v2))
          ∗ (((c.tc : Thread nD τ).loc main_c) ↦{fullShare} W (Proc.devRef .tc main_c))) := by
  unfold StableHlo.held tailS
  rw [bigSep_insert (by
      rw [Finset.mem_insert, Finset.mem_singleton]
      rintro (h | h)
      · exact StableHlo.devRef_ne_of_ne (by decide) h
      · exact StableHlo.devRef_ne_of_ne (by decide) h),
    bigSep_insert (by
      rw [Finset.mem_singleton]
      exact StableHlo.devRef_ne_of_ne (by decide)),
    bigSep_singleton]
  rfl

theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl
  · rw [StableHlo.reshape_bufs]
    intro b hb
    rw [Finset.mem_insert, Finset.mem_singleton] at hb
    rcases hb with rfl | rfl <;> simp
  · rw [StableHlo.nullary_bufs]
    intro b hb
    rw [Finset.mem_singleton] at hb
    subst hb; simp

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The lines after the region do not write the output array. -/
theorem Wtail_v1 (c : Dev nD) : Wtail m c main_v1 = (dats m 0 c).arrAt 5 cfg0.N := by
  unfold Wtail
  rw [StableHlo.after_of_forall_not_mem _ _ (fun op hop => ?_), Wf_v1]
  simp only [hostOps1, List.mem_cons, List.mem_nil_iff, or_false] at hop
  rcases hop with rfl | rfl
  · rw [StableHlo.reshape_writes, Finset.mem_singleton]; exact StableHlo.devRef_ne_of_ne (by decide)
  · rw [StableHlo.nullary_writes, Finset.mem_singleton]; exact StableHlo.devRef_ne_of_ne (by decide)

/-- Nor the first argument. -/
theorem Wtail_arg0 (c : Dev nD) : Wtail m c main_arg0 = V m c main_arg0 := by
  unfold Wtail
  rw [StableHlo.after_of_forall_not_mem _ _ (fun op hop => ?_), Wf_of_ne m c main_arg0 (by decide)]
  simp only [hostOps1, List.mem_cons, List.mem_nil_iff, or_false] at hop
  rcases hop with rfl | rfl
  · rw [StableHlo.reshape_writes, Finset.mem_singleton]; exact StableHlo.devRef_ne_of_ne (by decide)
  · rw [StableHlo.nullary_writes, Finset.mem_singleton]; exact StableHlo.devRef_ne_of_ne (by decide)

/-- The three buffers the lines touch, gathered into the set they run within. -/
theorem held_tailS_intro (c : Dev nD) (W : Valuation τ sig (Elt F)) :
    iprop((((c.tc : Thread nD τ).loc main_v1) ↦{fullShare} W (Proc.devRef .tc main_v1))
          ∗ (((c.tc : Thread nD τ).loc main_v2) ↦{fullShare} W (Proc.devRef .tc main_v2))
          ∗ (((c.tc : Thread nD τ).loc main_c) ↦{fullShare} W (Proc.devRef .tc main_c)))
      ⊢ (StableHlo.held (c.tc : Thread nD τ) tailS W : sProp 𝕄) := Entails.of_eq (held_tailS c W).symm

theorem held_tailS_elim (c : Dev nD) (W : Valuation τ sig (Elt F)) :
    (StableHlo.held (c.tc : Thread nD τ) tailS W : sProp 𝕄)
      ⊢ iprop((((c.tc : Thread nD τ).loc main_v1) ↦{fullShare} W (Proc.devRef .tc main_v1))
          ∗ (((c.tc : Thread nD τ).loc main_v2) ↦{fullShare} W (Proc.devRef .tc main_v2))
          ∗ (((c.tc : Thread nD τ).loc main_c) ↦{fullShare} W (Proc.devRef .tc main_c))) := Entails.of_eq (held_tailS c W)

/-- THE LINES AFTER THE REGION: from the region's exit — the boundary, the pipeline's arrays at their final contents,
    the bypassing buffers as the region found them — the two lines run within the output array and their two result
    buffers, and hand back the arrays as they were and the bypassing buffers at the contents after the lines. -/
theorem htail (c : Dev nD) (Q' : PUnit → sProp 𝕄) :
    iprop((iprop((dats m 0 c).arrays ((dats m 0 c).arrAt · cfg0.N)
            ∗ unscopedRestP (Ix := Unit) (Name := ℕ) (U := UR sig nD τ) (Lvl := ℕ) Pipeline.Prefetch.none spec0 c (Wtail m c)) -∗ Q' ⟨⟩)
        ∗ boundary (c.tc : Thread nD τ) ∗ (dats m 0 c).arrays ((dats m 0 c).arrAt · cfg0.N)
        ∗ unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ
          (Pipeline.chain [StableHlo.seq hostOps1]) Q' := by
  have e1 : (V m c main_v2) = Wf m c (Proc.devRef .tc main_v2) := (Wf_of_ne m c main_v2 (by decide)).symm
  have e2 : (V m c main_c) = Wf m c (Proc.devRef .tc main_c) := (Wf_of_ne m c main_c (by decide)).symm
  have e5 : (dats m 0 c).arrAt 5 cfg0.N = Wf m c (Proc.devRef .tc main_v1) := (Wf_v1 m c).symm
  have e5' : StableHlo.after ([hostOps1] : List (List (HloOp τ sig (Elt F)))).flatten (Wf m c) (Proc.devRef .tc main_v1) = (dats m 0 c).arrAt 5 cfg0.N :=
    Wtail_v1 m c
  have hend : (Q' ⟨⟩) ⊢ wp frame (wpE (defs (F := F)) (Variants.lift Variants.none) (c.tc : Thread nD τ) none) Set.univ
      (Pipeline.chain ([] : List (Prog (TpuEff nD τ sig (Elt F) (Pipeline.Sig Λ₀ (Fin 1) fun p => (pcfgs (F := F) p).Adm) .tc) PUnit))) Q' := by
    rw [Pipeline.chain_nil]; exact le_wp_ret _ _ _ _ Q'
  rw [Pipeline.unscopedRestP_none, Pipeline.unscopedRestP_none, unscopedRest0_eq, unscopedRest0_eq, arrays_open, Wtail_arg0,
    show Wtail m c main_v2 = StableHlo.after ([hostOps1] : List (List (HloOp τ sig (Elt F)))).flatten (Wf m c) (Proc.devRef .tc main_v2) from rfl,
    show Wtail m c main_c = StableHlo.after ([hostOps1] : List (List (HloOp τ sig (Elt F)))).flatten (Wf m c) (Proc.devRef .tc main_c) from rfl,
    e1, e2, ← e5']
  rw [show (Pipeline.chain [StableHlo.seq (hostOps1 (F := F))] : Prog (TpuEff nD τ sig (Elt F) (Pipeline.Sig Λ₀ (Fin 1) fun p => (pcfgs (F := F) p).Adm) .tc) PUnit)
      = Pipeline.chain (([hostOps1] : List (List (HloOp τ sig (Elt F)))).map StableHlo.seq ++ []) from rfl]
  iintro ⟨Hk, Hb, ⟨H0, H1, H2, H3, H4, H5⟩, ⟨Ha0, Hv2, Hc⟩⟩
  iapply (Pipeline.wp_seqs_then (fun q => (cfgs q).toPCfg (Val := Elt F)) defs₀ Variants.none c tailS [] [hostOps1] tail_sub tail_fresh (Wf m c)) $$ [Hb H5 Hv2 Hc]
  · isplitl [Hb]; · iexact Hb
    iapply (held_tailS_intro c (Wf m c))
    isplitl [H5]
    · iapply (Entails.of_eq (congrArg (fun f => (((c.tc : Thread nD τ).loc main_v1) ↦{fullShare} f : sProp 𝕄)) (e5'.trans e5)))
      iexact H5
    isplitl [Hv2]; · iexact Hv2
    iexact Hc
  iintro ⟨Hb, Hh⟩
  iapply hend
  ihave Hh := (held_tailS_elim c _) $$ Hh
  icases Hh with ⟨H5, Hv2, Hc⟩
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  · isplitl [Ha0]; · iexact Ha0
    isplitl [Hv2]; · iexact Hv2
    iexact Hc

/-! ## The run -/

/-- The regrouping line writes neither argument. -/
theorem V_main_arg0 (c : Dev nD) : V m c main_arg0 = m ((c.tc : Thread nD τ).loc main_arg0) := by
  show StableHlo.after ([hostOps0] : List (List (HloOp τ sig (Elt F)))).flatten (fun b => m (c, b)) (Proc.devRef .tc main_arg0) = _
  rw [StableHlo.after_of_forall_not_mem _ _ (fun op hop => ?_)]
  simp only [hostOps0, List.flatten_cons, List.flatten_nil, List.append_nil, List.mem_cons, List.mem_nil_iff, or_false] at hop
  subst hop
  rw [StableHlo.reshape_writes, Finset.mem_singleton]; exact StableHlo.devRef_ne_of_ne (by decide)

theorem V_main_arg1 (c : Dev nD) : V m c main_arg1 = m ((c.tc : Thread nD τ).loc main_arg1) := by
  show StableHlo.after ([hostOps0] : List (List (HloOp τ sig (Elt F)))).flatten (fun b => m (c, b)) (Proc.devRef .tc main_arg1) = _
  rw [StableHlo.after_of_forall_not_mem _ _ (fun op hop => ?_)]
  simp only [hostOps0, List.flatten_cons, List.flatten_nil, List.append_nil, List.mem_cons, List.mem_nil_iff, or_false] at hop
  subst hop
  rw [StableHlo.reshape_writes, Finset.mem_singleton]; exact StableHlo.devRef_ne_of_ne (by decide)

-- the launch theorem's implicit arguments are found by unifying its conclusion with this one, which takes unfolding plain
-- definitions in a metavariable's type
set_option backward.isDefEq.respectTransparency.types false in
/-- At the compiled mesh, for any values, from any memory with zero counters: every weakly fair execution of @main
    terminates, and in every final state the two results hold the contents after the last two host lines, run from the
    output array as the pipeline wrote it back, and the two arguments are as launched. -/
theorem run_main : θ_run (defs (F := F)) (onTc (τ := τ) (main (F := F))) (s₀ m ρ) (fun r => ∀ c : Dev nD,
      r.2.mem ((c.tc : Thread nD τ).loc main_v2) = Wtail m c main_v2
      ∧ r.2.mem ((c.tc : Thread nD τ).loc main_c) = Wtail m c main_c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Pipeline.Prefetch.none spec0 c (V m c))
    (Z' := fun c => unscopedRestP (Ix := Unit) (Name := ℕ) (U := UR sig nD τ) (Lvl := ℕ) Pipeline.Prefetch.none spec0 c (Wtail m c))
    (hX := fun c => by
      iintro ⟨HU, -, -, -, Hp, -⟩; imodintro
      isplitl [Hp]; · iexists _; iexact Hp
      iexact HU)
    (hin := fun c => by
      show _ ⊢ ΦA spec0 c
      unfold ΦA
      iintro ⟨Hp, -, Hr⟩
      isplitl [Hr] <;> iassumption)
    (hout := fun c => by
      show ΦA spec0 c ⊢ _
      rw [Pipeline.ownSems0_none]; unfold ΦA
      iintro ⟨Hr, Hp⟩
      isplitl [Hp]; · iexact Hp
      isplitr; · iempintro
      iexact Hr)
    (htail := htail m)
    (QY := fun c s => ∀ b ∈ Pipeline.restRefsP sig Pipeline.Prefetch.none spec0, s.mem ((c.tc : Thread nD τ).loc b) = Wtail m c b)
    (hY := fun c s' => by
      iintro ⟨-, HU, HSI⟩
      unfold unscopedRestP
      imodintro
      iapply (pointsTo_read_all (Pipeline.restRefsP sig Pipeline.Prefetch.none spec0) (fun b => (c.tc : Thread nD τ).loc b) (Wtail m c) s')
      isplitl [HU] <;> iassumption)
    (hQ := fun s h c => by
      have hr : ∀ b : Ref sig .tc, b.isScoped = false → (∀ w, (spec0 w).arr.view.ref ≠ b) → b ∈ Pipeline.restRefsP sig Pipeline.Prefetch.none spec0 :=
        fun b hs ha => Finset.mem_sdiff.mpr ⟨Pipeline.mem_restRefs_of b hs ha, fun hk => by
          obtain ⟨k, -, -⟩ := Finset.mem_image.mp hk; exact k.elim0⟩
      refine ⟨(h c).2.2 main_v2 (hr main_v2 rfl (by decide)), (h c).2.2 main_c (hr main_c rfl (by decide)), ?_, ?_⟩
      · exact ((h c).2.2 main_arg0 (hr main_arg0 rfl (by decide))).trans ((Wtail_arg0 m c).trans (V_main_arg0 m c))
      · exact ((h c).1 4).trans (((dats m 0 c).arrAt_in 4 rfl _).trans ((A_eq m c 4).trans (V_main_arg1 m c))))

end Cert.KernelIdeal.Frame

end
-- ==== Proof.Spec.lean ====
/-
  The gate's logits as one function of the two argument arrays: entry (p, e) is the inner product of row p of the
  input with row e of the weight matrix, a sum of 768 products on the extended reals. Both programs compute this
  sum, term for term in the same order; no algebraic law is needed between them.
-/
import Idealize.ShloMosaic.PureOps.Ideal
import Idealize.ShloMosaic.Lib.ValueIdx

noncomputable section

open scoped BigOperators

namespace Cert.Spec

open Idealize.ShloMosaic Idealize.ShloMosaic.ValueIdx

/-- The input rows, the weight rows, and the logits. -/
abbrev SX : Shape := ⟨2, ![32768, 768]⟩
abbrev SW : Shape := ⟨2, ![64, 768]⟩
abbrev SO : Shape := ⟨2, ![32768, 64]⟩

/-- The inner product of input row `p` with weight row `e`. -/
def dotAt (x : SX.Idx → EReal) (w : SW.Idx → EReal) (p : Fin 32768) (e : Fin 64) : EReal :=
  ∑ k : Fin 768, x (ix2 p k) * w (ix2 e k)

/-- The logits: `x · Wᵀ`, index by index. -/
def logits (x : SX.Idx → EReal) (w : SW.Idx → EReal) : SO.Idx → EReal :=
  fun i => dotAt x w (i 0) (i 1)

theorem logits_apply (x : SX.Idx → EReal) (w : SW.Idx → EReal) (p : Fin 32768) (e : Fin 64) :
    logits x w (ix2 p e) = dotAt x w p e := rfl

end Cert.Spec

end
-- ==== Proof.Ideal.Value.lean ====
/-
  The value of the idealized kernel's results: the output array after the region, read through the host line that
  regroups it, is the logits of the two argument arrays.

  The road. At a grid point the body stores into slab s of its output block the product of input block s with the
  transposed weights, a product into a zero accumulator: entry (s, r, e) of the block is the inner product of row r of
  input block s with row e of the weights. Input block s at point t is rows [1024·t, 1024·t + 1024) of quarter s of the
  regrouped input, the weights' block is the whole weight array, and the output's block at point t is rows
  [1024·t, 1024·t + 1024) of every quarter of the output array; so what point t writes back is block t of ONE function
  of the arrays the region finds, entry (s, r', e) the inner product of row r' of quarter s with row e of the weights.
  The eight blocks cover the output array, which therefore ends holding that function. Row r' of quarter s of the
  regrouped input is row 8192·s + r' of the input as launched, and the host line after the region puts entry (s, r', e)
  at row 8192·s + r': the result is the logits, term for term.
-/
import proofs.«143385_g55542517072588_cont_9to1c4b_208_7_alg».proof.Proof.Ideal.Data
import proofs.«143385_g55542517072588_cont_9to1c4b_208_7_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

variable (m : (ℓ : Loc nD τ sig) → Buf (Elt Ideal) ℓ)

namespace GateValue

/-! ## The body's product at an index -/

/-- Row axis of the left operand: the output's row. -/
theorem mm_lhs_0 (i : S1024x64.Idx) (q : dot_S1024x768_S64x768_S1024x64_1_1_0_0_n_n.contr.Idx) :
    (dot_S1024x768_S64x768_S1024x64_1_1_0_0_n_n.lhsIdx i q 0).val = (i 0).val := by
  unfold DotDims.lhsIdx
  rw [dif_neg (show ¬(0 : Fin S1024x768.rank) ∈ dot_S1024x768_S64x768_S1024x64_1_1_0_0_n_n.lhsBatch by decide), dif_pos (show (0 : Fin S1024x768.rank) ∈ dot_S1024x768_S64x768_S1024x64_1_1_0_0_n_n.lhsNonContracting by decide)]
  rfl
/-- Column axis of the left operand: the contraction's position. -/
theorem mm_lhs_1 (i : S1024x64.Idx) (q : dot_S1024x768_S64x768_S1024x64_1_1_0_0_n_n.contr.Idx) :
    (dot_S1024x768_S64x768_S1024x64_1_1_0_0_n_n.lhsIdx i q 1).val = (q ⟨0, by decide⟩).val :=
  dot_S1024x768_S64x768_S1024x64_1_1_0_0_n_n.lhsIdx_val_of_single rfl i q
/-- Row axis of the right operand: the output's column. -/
theorem mm_rhs_0 (i : S1024x64.Idx) (q : dot_S1024x768_S64x768_S1024x64_1_1_0_0_n_n.contr.Idx) :
    (dot_S1024x768_S64x768_S1024x64_1_1_0_0_n_n.rhsIdx i q 0).val = (i 1).val := by
  unfold DotDims.rhsIdx
  rw [dif_neg (show ¬(0 : Fin S64x768.rank) ∈ dot_S1024x768_S64x768_S1024x64_1_1_0_0_n_n.rhsBatch by decide), dif_pos (show (0 : Fin S64x768.rank) ∈ dot_S1024x768_S64x768_S1024x64_1_1_0_0_n_n.rhsNonContracting by decide)]
  rfl
/-- Column axis of the right operand: the contraction's position. -/
theorem mm_rhs_1 (i : S1024x64.Idx) (q : dot_S1024x768_S64x768_S1024x64_1_1_0_0_n_n.contr.Idx) :
    (dot_S1024x768_S64x768_S1024x64_1_1_0_0_n_n.rhsIdx i q 1).val = (q ⟨0, by decide⟩).val :=
  dot_S1024x768_S64x768_S1024x64_1_1_0_0_n_n.rhsIdx_val_of_single rfl i q

/-- The product into a zero accumulator, entry (r, e): the inner product of row r of the left operand with row e of the
    right one. -/
theorem matmul_zero_apply (x : FVec Ideal S1024x768 .f32) (w : FVec Ideal S64x768 .f32) (r : Fin 1024) (e : Fin 64) :
    matmul dot_S1024x768_S64x768_S1024x64_1_1_0_0_n_n none x w (constant (F := Ideal) S1024x64 .f32 0x00000000#32) (ix2 r e)
      = ∑ k : Fin 768, x (ix2 r k) * w (ix2 e k) := by
  show FloatOps.matmul dot_S1024x768_S64x768_S1024x64_1_1_0_0_n_n none x w (constant (F := Ideal) S1024x64 .f32 0x00000000#32) (ix2 r e) = _
  rw [Ideal.matmul_constant_zero_apply, ← Equiv.sum_comp (contrEquiv1 dot_S1024x768_S64x768_S1024x64_1_1_0_0_n_n 768 rfl rfl).symm]
  refine Finset.sum_congr rfl fun k _ => ?_
  have hk := contrEquiv1_symm_val dot_S1024x768_S64x768_S1024x64_1_1_0_0_n_n 768 rfl rfl k
  have el : dot_S1024x768_S64x768_S1024x64_1_1_0_0_n_n.lhsIdx (ix2 r e) ((contrEquiv1 dot_S1024x768_S64x768_S1024x64_1_1_0_0_n_n 768 rfl rfl).symm k) = ix2 r k := funext fun a => Fin.ext (by
    match a with
    | ⟨0, _⟩ => exact mm_lhs_0 _ _
    | ⟨1, _⟩ => exact (mm_lhs_1 _ _).trans hk)
  have er : dot_S1024x768_S64x768_S1024x64_1_1_0_0_n_n.rhsIdx (ix2 r e) ((contrEquiv1 dot_S1024x768_S64x768_S1024x64_1_1_0_0_n_n 768 rfl rfl).symm k) = ix2 e k := funext fun a => Fin.ext (by
    match a with
    | ⟨0, _⟩ => exact mm_rhs_0 _ _
    | ⟨1, _⟩ => exact (mm_rhs_1 _ _).trans hk)
  rw [el, er]

/-- What the body stores into a slab, entry (z, r, e): the inner product of row r of the loaded input block with row e
    of the loaded weights. The four slabs' stored values are the same function of what was loaded. -/
theorem pay1_apply (v0 : Vec Ideal S64x768 .f32) (v1 : Vec Ideal S1x1024x768 .f32) (z : Fin 1) (r : Fin 1024) (e : Fin 64) :
    k0_pay1 v0 v1 (ix3 z r e) = ∑ k : Fin 768, v1 (ix3 (0 : Fin 1) r k) * v0 (ix2 e k) := by
  unfold k0_pay1
  rw [shapeCast_ab_1ab_apply, matmul_zero_apply]
  refine Finset.sum_congr rfl fun k _ => ?_
  rw [shapeCast_1ab_ab_apply]
theorem pay2_eq : k0_pay2 (F := Ideal) = k0_pay1 := rfl
theorem pay3_eq : k0_pay3 (F := Ideal) = k0_pay1 := rfl
theorem pay4_eq : k0_pay4 (F := Ideal) = k0_pay1 := rfl

/-! ## The output block at an index -/

/-- Loading the whole weight buffer reads it. -/
theorem ld_rW (w : Vec Ideal S64x768 .f32) : View.ld w rW = w :=
  View.ld_unit_zero (funext fun a => by match a with | ⟨0, _⟩ => rfl | ⟨1, _⟩ => rfl) _ w
/-- Loading a whole input buffer reads it. -/
theorem ld_rX (v : Vec Ideal S1x1024x768 .f32) : View.ld v rX = v :=
  View.ld_unit_zero (funext fun a => by match a with | ⟨0, _⟩ => rfl | ⟨1, _⟩ => rfl | ⟨2, _⟩ => rfl) _ v

/-- Entry (s, r, e) of the output block is entry (0, r, e) of slab s. -/
theorem slab0_emb (r : Fin 1024) (e : Fin 64) : ix3 (0 : Fin 4) r e = rO0.emb (ix3 (0 : Fin 1) r e) :=
  funext fun a => Fin.ext (by
    match a with
    | ⟨0, _⟩ => rfl
    | ⟨1, _⟩ => show r.val = 0 + 1 * r.val; omega
    | ⟨2, _⟩ => show e.val = 0 + 1 * e.val; omega)
theorem slab1_emb (r : Fin 1024) (e : Fin 64) : ix3 (1 : Fin 4) r e = rO1.emb (ix3 (0 : Fin 1) r e) :=
  funext fun a => Fin.ext (by
    match a with
    | ⟨0, _⟩ => rfl
    | ⟨1, _⟩ => show r.val = 0 + 1 * r.val; omega
    | ⟨2, _⟩ => show e.val = 0 + 1 * e.val; omega)
theorem slab2_emb (r : Fin 1024) (e : Fin 64) : ix3 (2 : Fin 4) r e = rO2.emb (ix3 (0 : Fin 1) r e) :=
  funext fun a => Fin.ext (by
    match a with
    | ⟨0, _⟩ => rfl
    | ⟨1, _⟩ => show r.val = 0 + 1 * r.val; omega
    | ⟨2, _⟩ => show e.val = 0 + 1 * e.val; omega)
theorem slab3_emb (r : Fin 1024) (e : Fin 64) : ix3 (3 : Fin 4) r e = rO3.emb (ix3 (0 : Fin 1) r e) :=
  funext fun a => Fin.ext (by
    match a with
    | ⟨0, _⟩ => rfl
    | ⟨1, _⟩ => show r.val = 0 + 1 * r.val; omega
    | ⟨2, _⟩ => show e.val = 0 + 1 * e.val; omega)

/-- An entry of slab s is in no later slab's rectangle, so a later slab's store leaves it alone. -/
theorem canon_skip {s : Fin 4} {o : Nat} (h : s.val < o) (r : Fin 1024) (e : Fin 64)
    (inb : ∀ a, (![o, 0, 0] : Fin 3 → Nat) a + S1x1024x64.size a ≤ S4x1024x64.size a)
    (pay : (Rect.unit (s := S4x1024x64) ![o, 0, 0] S1x1024x64.size inb).shape.Idx → Elt Ideal .f32)
    (L : List (View.Piece (Elt Ideal) S4x1024x64 .f32)) :
    View.canon (⟨Rect.unit (s := S4x1024x64) ![o, 0, 0] S1x1024x64.size inb, pay⟩ :: L) (ix3 s r e) = View.canon L (ix3 s r e) := by
  refine View.canon_cons_of_not_mem _ L ?_
  show ix3 s r e ∉ (Rect.unit (s := S4x1024x64) ![o, 0, 0] S1x1024x64.size inb).set
  rw [Rect.mem_set_unit]
  intro hm
  have h0 : o ≤ s.val := (hm 0).1
  omega

/-- Slab 3 of the output block, entry (r, e): the inner product of row r of input block 3 with row e of the weights. -/
theorem out5_slab3 (x0 x1 x2 x3 : Vec Ideal S1x1024x768 .f32) (w : Vec Ideal S64x768 .f32) (r : Fin 1024) (e : Fin 64) :
    out5 x0 x1 x2 x3 w (ix3 (3 : Fin 4) r e) = ∑ k : Fin 768, x3 (ix3 (0 : Fin 1) r k) * w (ix2 e k) := by
  unfold out5
  rw [slab3_emb, View.canon_cons_emb, pay4_eq, pay1_apply, ld_rW, ld_rX]
/-- Slab 2. -/
theorem out5_slab2 (x0 x1 x2 x3 : Vec Ideal S1x1024x768 .f32) (w : Vec Ideal S64x768 .f32) (r : Fin 1024) (e : Fin 64) :
    out5 x0 x1 x2 x3 w (ix3 (2 : Fin 4) r e) = ∑ k : Fin 768, x2 (ix3 (0 : Fin 1) r k) * w (ix2 e k) := by
  unfold out5
  rw [canon_skip (s := 2) (o := 3) (by decide), slab2_emb, View.canon_cons_emb, pay3_eq, pay1_apply, ld_rW, ld_rX]
/-- Slab 1. -/
theorem out5_slab1 (x0 x1 x2 x3 : Vec Ideal S1x1024x768 .f32) (w : Vec Ideal S64x768 .f32) (r : Fin 1024) (e : Fin 64) :
    out5 x0 x1 x2 x3 w (ix3 (1 : Fin 4) r e) = ∑ k : Fin 768, x1 (ix3 (0 : Fin 1) r k) * w (ix2 e k) := by
  unfold out5
  rw [canon_skip (s := 1) (o := 3) (by decide), canon_skip (s := 1) (o := 2) (by decide), slab1_emb, View.canon_cons_emb, pay2_eq, pay1_apply, ld_rW, ld_rX]
/-- Slab 0. -/
theorem out5_slab0 (x0 x1 x2 x3 : Vec Ideal S1x1024x768 .f32) (w : Vec Ideal S64x768 .f32) (r : Fin 1024) (e : Fin 64) :
    out5 x0 x1 x2 x3 w (ix3 (0 : Fin 4) r e) = ∑ k : Fin 768, x0 (ix3 (0 : Fin 1) r k) * w (ix2 e k) := by
  unfold out5
  rw [canon_skip (s := 0) (o := 3) (by decide), canon_skip (s := 0) (o := 2) (by decide), canon_skip (s := 0) (o := 1) (by decide), slab0_emb, View.canon_cons_emb, pay1_apply, ld_rW, ld_rX]

/-! ## From the blocks to the output array -/

/-- The output array as one function of the arrays the region finds: entry (s, r', e) is the inner product of row r' of
    quarter s of the regrouped input with row e of the weights. -/
def gateOut (X : S4x8192x768.Idx → EReal) (W : S64x768.Idx → EReal) : S4x8192x64.Idx → EReal :=
  fun i => ∑ k : Fin 768, X (ix3 (i 0) (i 1) k) * W (ix2 (i 2) k)

/-- The printed index maps, decided over the grid: at point t window s (s = 0..3) is at block (s, t, 0) of the regrouped
    input, the weights' window at block (0, 0), the output's at block (0, t, 0). -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 1 ∧ win0_1.index t (1 : Fin 3) = t.val ∧ win0_1.index t (2 : Fin 3) = 0
    ∧ win0_2.index t (0 : Fin 3) = 2 ∧ win0_2.index t (1 : Fin 3) = t.val ∧ win0_2.index t (2 : Fin 3) = 0
    ∧ win0_3.index t (0 : Fin 3) = 3 ∧ win0_3.index t (1 : Fin 3) = t.val ∧ win0_3.index t (2 : Fin 3) = 0
    ∧ win0_4.index t (0 : Fin 2) = 0 ∧ win0_4.index t (1 : Fin 2) = 0
    ∧ win0_5.index t (0 : Fin 3) = 0 ∧ win0_5.index t (1 : Fin 3) = t.val ∧ win0_5.index t (2 : Fin 3) = 0 :=
  (by decide +kernel : ∀ t : Fin grid0.N, _)

/-- Where entry (s, r, e) of the output's block at point t sits in the output array: (s, 1024·t + r, e). -/
theorem blk5_emb (t : Fin cfg0.N) (s : Fin 4) (r : Fin 1024) (e : Fin 64) (p : Fin 8192) (hp : p.val = 1024 * t.val + r.val) :
    ((cfg0.win 5).blk t).view.emb (ix3 s r e) = (ix3 s p e : S4x8192x64.Idx) := by
  obtain ⟨-, -, -, -, -, -, -, -, -, -, -, -, -, -, e0, e1, e2⟩ := idx_facts t
  funext a; apply Fin.ext
  match a with
  | ⟨0, _⟩ => show win0_5.index t (0 : Fin 3) * 4 + 1 * s.val = s.val; omega
  | ⟨1, _⟩ => show win0_5.index t (1 : Fin 3) * 1024 + 1 * r.val = p.val; omega
  | ⟨2, _⟩ => show win0_5.index t (2 : Fin 3) * 64 + 1 * e.val = e.val; omega

/-- Input window 0's block at point t, entry (0, r, k): the regrouped input at (0, 1024·t + r, k). -/
theorem iblk0_apply (c : Dev nD) (t : Fin cfg0.N) (z : Fin 1) (r : Fin 1024) (k : Fin 768) (p : Fin 8192) (hp : p.val = 1024 * t.val + r.val) :
    iblk m c 0 t (ix3 z r k) = V m c main_v0 (ix3 (0 : Fin 4) p k) := by
  obtain ⟨e0, e1, e2, -⟩ := idx_facts t
  show V m c main_v0 (((cfg0.win 0).blk t).view.emb (ix3 z r k)) = _
  congr 1
  funext a; apply Fin.ext
  match a with
  | ⟨0, _⟩ => show win0_0.index t (0 : Fin 3) * 1 + 1 * z.val = 0; omega
  | ⟨1, _⟩ => show win0_0.index t (1 : Fin 3) * 1024 + 1 * r.val = p.val; omega
  | ⟨2, _⟩ => show win0_0.index t (2 : Fin 3) * 768 + 1 * k.val = k.val; omega

/-- Input window 1's block at point t, entry (0, r, k): the regrouped input at (1, 1024·t + r, k). -/
theorem iblk1_apply (c : Dev nD) (t : Fin cfg0.N) (z : Fin 1) (r : Fin 1024) (k : Fin 768) (p : Fin 8192) (hp : p.val = 1024 * t.val + r.val) :
    iblk m c 1 t (ix3 z r k) = V m c main_v0 (ix3 (1 : Fin 4) p k) := by
  obtain ⟨-, -, -, e0, e1, e2, -⟩ := idx_facts t
  show V m c main_v0 (((cfg0.win 1).blk t).view.emb (ix3 z r k)) = _
  congr 1
  funext a; apply Fin.ext
  match a with
  | ⟨0, _⟩ => show win0_1.index t (0 : Fin 3) * 1 + 1 * z.val = 1; omega
  | ⟨1, _⟩ => show win0_1.index t (1 : Fin 3) * 1024 + 1 * r.val = p.val; omega
  | ⟨2, _⟩ => show win0_1.index t (2 : Fin 3) * 768 + 1 * k.val = k.val; omega

/-- Input window 2's block at point t, entry (0, r, k): the regrouped input at (2, 1024·t + r, k). -/
theorem iblk2_apply (c : Dev nD) (t : Fin cfg0.N) (z : Fin 1) (r : Fin 1024) (k : Fin 768) (p : Fin 8192) (hp : p.val = 1024 * t.val + r.val) :
    iblk m c 2 t (ix3 z r k) = V m c main_v0 (ix3 (2 : Fin 4) p k) := by
  obtain ⟨-, -, -, -, -, -, e0, e1, e2, -⟩ := idx_facts t
  show V m c main_v0 (((cfg0.win 2).blk t).view.emb (ix3 z r k)) = _
  congr 1
  funext a; apply Fin.ext
  match a with
  | ⟨0, _⟩ => show win0_2.index t (0 : Fin 3) * 1 + 1 * z.val = 2; omega
  | ⟨1, _⟩ => show win0_2.index t (1 : Fin 3) * 1024 + 1 * r.val = p.val; omega
  | ⟨2, _⟩ => show win0_2.index t (2 : Fin 3) * 768 + 1 * k.val = k.val; omega

/-- Input window 3's block at point t, entry (0, r, k): the regrouped input at (3, 1024·t + r, k). -/
theorem iblk3_apply (c : Dev nD) (t : Fin cfg0.N) (z : Fin 1) (r : Fin 1024) (k : Fin 768) (p : Fin 8192) (hp : p.val = 1024 * t.val + r.val) :
    iblk m c 3 t (ix3 z r k) = V m c main_v0 (ix3 (3 : Fin 4) p k) := by
  obtain ⟨-, -, -, -, -, -, -, -, -, e0, e1, e2, -⟩ := idx_facts t
  show V m c main_v0 (((cfg0.win 3).blk t).view.emb (ix3 z r k)) = _
  congr 1
  funext a; apply Fin.ext
  match a with
  | ⟨0, _⟩ => show win0_3.index t (0 : Fin 3) * 1 + 1 * z.val = 3; omega
  | ⟨1, _⟩ => show win0_3.index t (1 : Fin 3) * 1024 + 1 * r.val = p.val; omega
  | ⟨2, _⟩ => show win0_3.index t (2 : Fin 3) * 768 + 1 * k.val = k.val; omega

/-- The weights' window at any point is the whole weight array. -/
theorem iblk4_apply (c : Dev nD) (t : Fin cfg0.N) (e : Fin 64) (k : Fin 768) :
    iblk m c 4 t (ix2 e k) = V m c main_arg1 (ix2 e k) := by
  obtain ⟨-, -, -, -, -, -, -, -, -, -, -, -, e0, e1, -⟩ := idx_facts t
  show V m c main_arg1 (((cfg0.win 4).blk t).view.emb (ix2 e k)) = _
  congr 1
  funext a; apply Fin.ext
  match a with
  | ⟨0, _⟩ => show win0_4.index t (0 : Fin 2) * 64 + 1 * e.val = e.val; omega
  | ⟨1, _⟩ => show win0_4.index t (1 : Fin 2) * 768 + 1 * k.val = k.val; omega

/-- The body's output block at point t, entry (s, r, e), is the output function at (s, 1024·t + r, e). -/
theorem out5_blocks (c : Dev nD) (t : Fin cfg0.N) (s : Fin 4) (r : Fin 1024) (e : Fin 64) (p : Fin 8192) (hp : p.val = 1024 * t.val + r.val) :
    out5 (iblk m c 0 t) (iblk m c 1 t) (iblk m c 2 t) (iblk m c 3 t) (iblk m c 4 t) (ix3 s r e)
      = gateOut (V m c main_v0) (V m c main_arg1) (ix3 s p e) := by
  unfold gateOut
  match s with
  | ⟨0, _⟩ =>
    refine (out5_slab0 _ _ _ _ _ r e).trans (Finset.sum_congr rfl fun k _ => ?_)
    rw [iblk0_apply m c t 0 r k p hp, iblk4_apply]; rfl
  | ⟨1, _⟩ =>
    refine (out5_slab1 _ _ _ _ _ r e).trans (Finset.sum_congr rfl fun k _ => ?_)
    rw [iblk1_apply m c t 0 r k p hp, iblk4_apply]; rfl
  | ⟨2, _⟩ =>
    refine (out5_slab2 _ _ _ _ _ r e).trans (Finset.sum_congr rfl fun k _ => ?_)
    rw [iblk2_apply m c t 0 r k p hp, iblk4_apply]; rfl
  | ⟨3, _⟩ =>
    refine (out5_slab3 _ _ _ _ _ r e).trans (Finset.sum_congr rfl fun k _ => ?_)
    rw [iblk3_apply m c t 0 r k p hp, iblk4_apply]; rfl

/-- WHAT POINT t WRITES BACK is block t of the output function of the arrays the region finds. -/
theorem flushed5_eq (c : Dev nD) (t : Fin cfg0.N) :
    (dats m 0 c).flushed 5 t = ((cfg0.win 5).blk t).view.read (Elt Ideal) (gateOut (V m c main_v0) (V m c main_arg1)) := by
  show (cfg0.win 5).cut (grid0.coords t) ((dats m 0 c).after 5 t) = _
  rw [after5]
  have ht : t.val < 8 := Nat.lt_of_lt_of_eq t.isLt N_0
  have key : ∀ j : S4x1024x64.Idx, out5 (iblk m c 0 t) (iblk m c 1 t) (iblk m c 2 t) (iblk m c 3 t) (iblk m c 4 t) j
      = gateOut (V m c main_v0) (V m c main_arg1) (((cfg0.win 5).blk t).view.emb j) := fun j => by
    obtain ⟨s, r, e, rfl⟩ : ∃ (s : Fin 4) (r : Fin 1024) (e : Fin 64), j = ix3 s r e := ⟨j 0, j 1, j 2, eq_ix3 j⟩
    have hr : r.val < 1024 := r.isLt
    rw [blk5_emb t s r e ⟨1024 * t.val + r.val, by omega⟩ rfl]
    exact out5_blocks m c t s r e _ rfl
  exact funext key

/-- An index of the output array is in point t's block iff each coordinate is in the block's range on its axis. -/
theorem mem_blk5 (t : Fin cfg0.N) (i : S4x8192x64.Idx) :
    i ∈ ((cfg0.win 5).blk t).view.set ↔ ∀ a : Fin 3, win0_5.index t a * S4x1024x64.size a ≤ (i a).val ∧ (i a).val < win0_5.index t a * S4x1024x64.size a + S4x1024x64.size a := by
  show i ∈ ((View.whole main_v1).slice (win0_5.rect t)).set ↔ _
  rw [View.set_slice_whole, Rect.mem_set_unit]
  exact Iff.rfl

/-- The output's blocks cover its array: row r' of any quarter is in the block of point r' / 1024. -/
theorem cover5 (i : S4x8192x64.Idx) : ∃ t : Fin cfg0.N, (cfg0.win 5).flush t = true ∧ i ∈ ((cfg0.win 5).blk t).view.set := by
  have hi0 : (i 0).val < 4 := (i 0).isLt
  have hi1 : (i 1).val < 8192 := (i 1).isLt
  have hi2 : (i 2).val < 64 := (i 2).isLt
  have hq : (i 1).val / 1024 < cfg0.N := Nat.lt_of_lt_of_eq (show (i 1).val / 1024 < 8 by omega) N_0.symm
  refine ⟨⟨(i 1).val / 1024, hq⟩, flush0_5 _, ?_⟩
  rw [mem_blk5]
  obtain ⟨-, -, -, -, -, -, -, -, -, -, -, -, -, -, e0, e1, e2⟩ := idx_facts ⟨(i 1).val / 1024, hq⟩
  have e1' : win0_5.index ⟨(i 1).val / 1024, hq⟩ (1 : Fin 3) = (i 1).val / 1024 := e1
  intro a
  match a with
  | ⟨0, _⟩ => show win0_5.index _ (0 : Fin 3) * 4 ≤ (i 0).val ∧ (i 0).val < win0_5.index _ (0 : Fin 3) * 4 + 4; omega
  | ⟨1, _⟩ => show win0_5.index _ (1 : Fin 3) * 1024 ≤ (i 1).val ∧ (i 1).val < win0_5.index _ (1 : Fin 3) * 1024 + 1024; omega
  | ⟨2, _⟩ => show win0_5.index _ (2 : Fin 3) * 64 ≤ (i 2).val ∧ (i 2).val < win0_5.index _ (2 : Fin 3) * 64 + 64; omega

/-- THE OUTPUT ARRAY after the region: the output function of the arrays the region finds. -/
theorem final5 (c : Dev nD) : (dats m 0 c).arrAt 5 cfg0.N = gateOut (V m c main_v0) (V m c main_arg1) :=
  (dats m 0 c).arrAt_eq_of_cover 5 (gateOut (V m c main_v0) (V m c main_arg1)) (fun t _ => flushed5_eq m c t) cover5

/-! ## The arrays the region finds, and the host lines after it -/

/-- The regrouped input the region finds is the launched input, reshaped to four quarters. -/
theorem V_main_v0 (c : Dev nD) : (V m c main_v0 : S4x8192x768.Idx → EReal)
    = shapeCast S4x8192x768 (m ((c : Thread nD τ).loc main_arg0)) shapeCasts_S32768x768_S4x8192x768 := by
  show StableHlo.after hostOps0 (fun b => m (c, b)) (Proc.devRef .tc main_v0) = _
  after_results
  rfl

/-- The weights the region finds are the launched weights: the host line before the region does not write them. -/
theorem V_main_arg1 (c : Dev nD) : (V m c main_arg1 : S64x768.Idx → EReal) = m ((c : Thread nD τ).loc main_arg1) := by
  show StableHlo.after hostOps0 (fun b => m (c, b)) (Proc.devRef .tc main_arg1) = _
  after_results

/-- The regrouping [32768, 768] → [4, 8192, 768] read at (s, r', k): row 8192·s + r' of the input. -/
theorem regroup_apply (x : S32768x768.Idx → EReal) (h : S32768x768.ShapeCasts S4x8192x768) (s : Fin 4) (r' : Fin 8192) (k : Fin 768)
    (p : Fin 32768) (hp : p.val = 8192 * s.val + r'.val) :
    shapeCast S4x8192x768 x h (ix3 s r' k) = x (ix2 p k) :=
  shapeCast_apply x h _ _ (by
    rw [Shape.rowMajor_val_two, Shape.rowMajor_val_three]
    show p.val * 768 + k.val = (s.val * 8192 + r'.val) * 768 + k.val
    omega)

/-- The regrouping back [4, 8192, 64] → [32768, 64] read at (8192·s + r', e): entry (s, r', e). -/
theorem ungroup_apply (y : S4x8192x64.Idx → EReal) (h : S4x8192x64.ShapeCasts S32768x64) (s : Fin 4) (r' : Fin 8192) (e : Fin 64)
    (p : Fin 32768) (hp : p.val = 8192 * s.val + r'.val) :
    shapeCast S32768x64 y h (ix2 p e) = y (ix3 s r' e) :=
  shapeCast_apply y h _ _ (by
    rw [Shape.rowMajor_val_two, Shape.rowMajor_val_three]
    show (s.val * 8192 + r'.val) * 64 + e.val = p.val * 64 + e.val
    omega)

/-- The output function of the regrouped input, regrouped back, is the logits. -/
theorem ungroup_gateOut (x : S32768x768.Idx → EReal) (w : S64x768.Idx → EReal)
    (h : S32768x768.ShapeCasts S4x8192x768) (h' : S4x8192x64.ShapeCasts S32768x64) :
    shapeCast S32768x64 (gateOut (shapeCast S4x8192x768 x h) w) h' = Cert.Spec.logits x w := by
  funext i
  obtain ⟨p, e, rfl⟩ : ∃ (p : Fin 32768) (e : Fin 64), i = ix2 p e := ⟨i 0, i 1, eq_ix2 i⟩
  have hp : p.val < 32768 := p.isLt
  rw [ungroup_apply _ h' ⟨p.val / 8192, by omega⟩ ⟨p.val % 8192, by omega⟩ e p (by show p.val = 8192 * (p.val / 8192) + p.val % 8192; omega),
    Cert.Spec.logits_apply]
  show ∑ k : Fin 768, shapeCast S4x8192x768 x h (ix3 (⟨p.val / 8192, by omega⟩ : Fin 4) (⟨p.val % 8192, by omega⟩ : Fin 8192) k) * w (ix2 e k) = ∑ k : Fin 768, x (ix2 p k) * w (ix2 e k)
  refine Finset.sum_congr rfl fun k _ => ?_
  rw [regroup_apply x h _ _ k p (by show p.val = 8192 * (p.val / 8192) + p.val % 8192; omega)]

end GateValue

open GateValue

/-- After the host lines that follow the region, run from any contents `Wv` whose output array is what the pipeline
    wrote back, the regrouped result holds the logits of the argument arrays as launched. -/
theorem tail_v2 (c : Dev nD) (Wv : Valuation τ sig (Elt Ideal))
    (h1 : Wv (Proc.devRef .tc main_v1) = (dats (F := Ideal) m 0 c).arrAt 5 cfg0.N) :
    StableHlo.after (hostOps1 (F := Ideal)) Wv (Proc.devRef .tc main_v2)
      = Cert.Spec.logits (m ((c : Thread nD τ).loc main_arg0)) (m ((c : Thread nD τ).loc main_arg1)) := by
  show StableHlo.after hostOps1 Wv (Proc.devRef .tc main_v2) = _
  after_results
  rw [h1, final5, V_main_v0, V_main_arg1]
  exact ungroup_gateOut _ _ _ _

/-- And the constant result is the constant. -/
theorem tail_c (Wv : Valuation τ sig (Elt Ideal)) :
    StableHlo.after (hostOps1 (F := Ideal)) Wv (Proc.devRef .tc main_c) = constantI S_ 32 2#32 := by
  show StableHlo.after hostOps1 Wv (Proc.devRef .tc main_c) = _
  after_results

end Cert.KernelIdeal.Frame

end
-- ==== Proof.RefValue.lean ====
/-
  The idealized reference's run, read: its result is the logits of its argument arrays, and its second result the
  constant.
-/
import proofs.«143385_g55542517072588_cont_9to1c4b_208_7_alg».proof.Defs
import proofs.«143385_g55542517072588_cont_9to1c4b_208_7_alg».proof.Proof.Gen.ReferenceIdeal
import proofs.«143385_g55542517072588_cont_9to1c4b_208_7_alg».proof.Proof.Gen.ReferenceIdeal.Run
import proofs.«143385_g55542517072588_cont_9to1c4b_208_7_alg».proof.Proof.Gen.ReferenceIdeal.Read
import proofs.«143385_g55542517072588_cont_9to1c4b_208_7_alg».proof.Proof.Spec
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen

open Idealize.ShloMosaic.ValueIdx Cert.ReferenceIdeal.Read
open scoped BigOperators

/-- The left operand's index at (p, e) and contraction step k is (p, k). -/
theorem lidx_ix2 (p : Fin 32768) (e : Fin 64) (k : Fin 768) :
    lidx_main_v1 (ix2 p e) k = ix2 p k :=
  funext fun a => Fin.ext (by match a with | ⟨0, _⟩ => rfl | ⟨1, _⟩ => rfl)

/-- The transposed weights read at the right operand's index (k, e) are the weights at (e, k). -/
theorem idx_ridx_ix2 (p : Fin 32768) (e : Fin 64) (k : Fin 768) :
    idx_main_v0 (ridx_main_v1 (ix2 p e) k) = ix2 e k :=
  funext fun a => Fin.ext (by match a with | ⟨0, _⟩ => rfl | ⟨1, _⟩ => rfl)

/-- The reference's composed term is the logits: entry (p, e) of the product of the input with the transposed
    weights is the sum over k of x (p, k) · w (e, k), the same 768 products in the same order. -/
theorem result_eq (x : (⟨S32768x768, .f32⟩ : BufTy).Contents (Elt Ideal))
    (w : (⟨S64x768, .f32⟩ : BufTy).Contents (Elt Ideal)) :
    val_main_v1 (F := Ideal) x w = Cert.Spec.logits x w := by
  funext i
  obtain ⟨p, e, rfl⟩ : ∃ (p : Fin 32768) (e : Fin 64), i = ix2 p e := ⟨i 0, i 1, eq_ix2 i⟩
  rw [val_main_v1_apply, Cert.Spec.logits_apply]
  unfold Cert.Spec.dotAt
  refine Finset.sum_congr rfl fun k _ => ?_
  rw [val_main_v0_apply, lidx_ix2, idx_ridx_ix2]

/-- The reference's run from any memory: it ends with the logits of its arguments in its first result, the
    constant 2 in its second, and its arguments unchanged. -/
theorem ref_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v1)
            = Cert.Spec.logits (m ((c.tc : Thread nD τ).loc main_arg0)) (m ((c.tc : Thread nD τ).loc main_arg1))
        ∧ r.2.mem ((c.tc : Thread nD τ).loc main_c) = constantI S_ 32 2#32
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run (Cert.ReferenceIdeal.defs (F := Ideal)) _ _).mono
    (fun _ h c => ⟨(h c).1.trans ((val_main_v1_eq _ _).trans (result_eq _ _)), (h c).2⟩)
    (Cert.ReferenceIdeal.Value.run (F := Ideal) m ρ)

end Cert.ReferenceIdeal.RefValue

end
-- ==== Proof.lean ====
/-
  The gate kernel against its reference: logits = x · Wᵀ, returned with the constant 2.

  The kernel regroups the 32768 input rows into four quarters of 8192 and reads the regrouped array through FOUR
  windows at once, one per quarter; at grid point i it multiplies rows [1024·i, 1024·i + 1024) of each quarter with the
  transposed weights and stores the four products into the four slabs of the output block; a last host line regroups the
  [4, 8192, 64] result back into [32768, 64]. So entry (8192·s + r, e) of the result is the inner product of input row
  8192·s + r with weight row e — the reference's `dot_general` of the input with the transposed weights, the same 768
  products summed in the same order. No algebraic law joins the two sides and the precondition is never opened.

  The three frames: the kernel programs' come from the launch of the one region, with the regrouped input's share split
  in four among the windows that read it; the reference's is its run with the results dropped. The ideal pass rewrote
  nothing, so the word-level program and its idealization are one text and `preserves` is trivial.
-/
import proofs.«143385_g55542517072588_cont_9to1c4b_208_7_alg».proof.Defs
import proofs.«143385_g55542517072588_cont_9to1c4b_208_7_alg».proof.Proof.Gen.Kernel
import proofs.«143385_g55542517072588_cont_9to1c4b_208_7_alg».proof.Proof.Gen.KernelIdeal
import proofs.«143385_g55542517072588_cont_9to1c4b_208_7_alg».proof.Proof.Gen.ReferenceIdeal
import proofs.«143385_g55542517072588_cont_9to1c4b_208_7_alg».proof.Proof.Gen.Pre_finite_inputs
import proofs.«143385_g55542517072588_cont_9to1c4b_208_7_alg».proof.Proof.Bits.Launch
import proofs.«143385_g55542517072588_cont_9to1c4b_208_7_alg».proof.Proof.Ideal.Launch
import proofs.«143385_g55542517072588_cont_9to1c4b_208_7_alg».proof.Proof.Ideal.Value
import proofs.«143385_g55542517072588_cont_9to1c4b_208_7_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : @Cert.frame_Kernel Cert.Kernel.Gen.facts Cert.Pre_finite_inputs.Gen.facts := fun m ρ _ =>
  (θ_run (Cert.Kernel.defs (F := Bits)) _ _).mono (fun _ h c => ⟨(h c).2.2.1, (h c).2.2.2⟩)
    (Cert.Kernel.Frame.run_main (F := Bits) m ρ)

/-- So does its idealization. -/
theorem frame_ki : @Cert.frame_KernelIdeal Cert.KernelIdeal.Gen.facts Cert.Pre_finite_inputs.Gen.facts := fun m ρ _ =>
  (θ_run (Cert.KernelIdeal.defs (F := Ideal)) _ _).mono (fun _ h c => ⟨(h c).2.2.1, (h c).2.2.2⟩)
    (Cert.KernelIdeal.Frame.run_main (F := Ideal) m ρ)

/-- And the reference. -/
theorem frame_ri : @Cert.frame_ReferenceIdeal Cert.ReferenceIdeal.Gen.facts Cert.Pre_finite_inputs.Gen.facts := fun m ρ _ =>
  (θ_run (Cert.ReferenceIdeal.defs (F := Ideal)) _ _).mono (fun _ h c => (h c).2.2)
    (Cert.ReferenceIdeal.RefValue.ref_run m ρ)

/-- Both idealized programs end with the logits of the arguments and the constant 2. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Spec.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun _ => constantI Cert.KernelIdeal.S_ 32 2#32, ?_, ?_⟩
  · exact (θ_run (Cert.KernelIdeal.defs (F := Ideal)) _ _).mono
      (fun _ h c => ⟨(h c).1.trans (Cert.KernelIdeal.Frame.tail_v2 m c (Cert.KernelIdeal.Frame.Wf m c) (Cert.KernelIdeal.Frame.Wf_v1 m c)),
        (h c).2.1.trans (Cert.KernelIdeal.Frame.tail_c (Cert.KernelIdeal.Frame.Wf m c)), (h c).2.2⟩)
      (Cert.KernelIdeal.Frame.run_main (F := Ideal) m ρ)
  · exact (θ_run (Cert.ReferenceIdeal.defs (F := Ideal)) _ _).mono
      (fun _ h c => ⟨by rw [(h c).1, (hagree c).1, (hagree c).2], (h c).2⟩)
      (Cert.ReferenceIdeal.RefValue.ref_run m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
